-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1x8 : Shape := ⟨3, ![4096, 1, 8]⟩
abbrev S4096x1x4096 : Shape := ⟨3, ![4096, 1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1x8 : S_.BroadcastsInDim S4096x1x8 (![] : Fin 0 → Fin S4096x1x8.rank)
  reducesTo_S4096x1x8_S_d0_1_2 : S4096x1x8.ReducesTo [0, 1, 2] S_
  bcast_S_S4096x1x4096 : S_.BroadcastsInDim S4096x1x4096 (![] : Fin 0 → Fin S4096x1x4096.rank)
  reducesTo_S4096x1x4096_S_d0_1_2 : S4096x1x4096.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x2048x4096 .f32) (main_arg1 : FVec F S4096x1x8 .f32) (main_arg2 : IVec S4096x1x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1x8 .f32 := Host.absf main_arg1
  let main_cst_0 : FVec F S_ .f32 := constant S_ .f32 0x7F800000#32
  let main_v5 : FVec F S4096x1x8 .f32 := broadcastInDim S4096x1x8 ![] bcast_S_S4096x1x8 main_cst_0
  let main_v6 : IVec S4096x1x8 1 := cmpf .olt main_v4 main_v5
  let main_c_1 : IVec S_ 1 := constantI S_ 1 1#1
  let main_v7 : IVec S_ 1 := (fun x v => Host.reduce IntOp.andi x v reducesTo_S4096x1x8_S_d0_1_2 h_S_) main_v6 main_c_1
  let main_v8 : IVec S_ 1 := andi main_v3 main_v7
  let main_c_2 : IVec S_ 32 := constantI S_ 32 0#32
  let main_v9 : IVec S4096x1x4096 32 := broadcastInDim S4096x1x4096 ![] bcast_S_S4096x1x4096 main_c_2
  let main_v10 : IVec S4096x1x4096 1 := cmpi .sge main_arg2 main_v9
  let main_c_3 : IVec S_ 1 := constantI S_ 1 1#1
  let main_v11 : IVec S_ 1 := (fun x v => Host.reduce IntOp.andi x v reducesTo_S4096x1x4096_S_d0_1_2 h_S_) main_v10 main_c_3
  let main_v12 : IVec S_ 1 := andi main_v8 main_v11
  let main_c_4 : IVec S_ 32 := constantI S_ 32 8#32
  let main_v13 : IVec S4096x1x4096 32 := broadcastInDim S4096x1x4096 ![] bcast_S_S4096x1x4096 main_c_4
  let main_v14 : IVec S4096x1x4096 1 := cmpi .slt main_arg2 main_v13
  let main_c_5 : IVec S_ 1 := constantI S_ 1 1#1
  let main_v15 : IVec S_ 1 := (fun x v => Host.reduce IntOp.andi x v reducesTo_S4096x1x4096_S_d0_1_2 h_S_) main_v14 main_c_5
  fn_part1 (F := F) main_v12 main_v15
-- ==== Kernel.lean ====
abbrev S4x2048x4096 : Shape := ⟨3, ![4, 2048, 4096]⟩
abbrev S4096x1x8 : Shape := ⟨3, ![4096, 1, 8]⟩
abbrev S4096x1x4096 : Shape := ⟨3, ![4096, 1, 4096]⟩
abbrev S8192x4096 : Shape := ⟨2, ![8192, 4096]⟩
abbrev S4096x8 : Shape := ⟨2, ![4096, 8]⟩
abbrev S4096x4096 : Shape := ⟨2, ![4096, 4096]⟩
abbrev S512x4096 : Shape := ⟨2, ![512, 4096]⟩
abbrev S512x8 : Shape := ⟨2, ![512, 8]⟩
abbrev S512x1024 : Shape := ⟨2, ![512, 1024]⟩
abbrev S512x1 : Shape := ⟨2, ![512, 1]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x1x8, .f32⟩
  | .hbm, ⟨2, _⟩ => ⟨S4096x1x4096, .i32⟩
  | .hbm, ⟨3, _⟩ => ⟨S8192x4096, .f32⟩
  | .hbm, ⟨4, _⟩ => ⟨S4096x8, .f32⟩
  | .hbm, ⟨5, _⟩ => ⟨S4096x4096, .i32⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S512x4096, .i32⟩
  | .local _ .vmem, ⟨1, _⟩ => ⟨S512x4096, .i32⟩
  | .local _ .vmem, ⟨2, _⟩ => ⟨S512x8, .f32⟩
  | .local _ .vmem, ⟨3, _⟩ => ⟨S512x8, .f32⟩
  | .local _ .vmem, ⟨4, _⟩ => ⟨S512x4096, .bf16⟩
  | .local _ .vmem, ⟨5, _⟩ => ⟨S512x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v0 : BitVec 32 := Scalar.muli c0_i32 c1024_i32
  v0
def k0_off1 (c0_i32 : BitVec 32) : Fin 2 → Nat :=
  let c0 : Index := 0#32
  let c1024_i32 : BitVec 32 := 1024#32
  let v0 : BitVec 32 := Scalar.muli c0_i32 c1024_i32
  let v1 : BitVec 32 := v0
  let v2 : Index := Scalar.indexCast v1
  ![0, v2.toNat]
def k0_mult2 : BitVec 32 :=
  let c1_i32_21 : BitVec 32 := 1#32
  let c1024_i32_22 : BitVec 32 := 1024#32
  let v85 : BitVec 32 := Scalar.muli c1_i32_21 c1024_i32_22
  v85
def k0_mult3 : BitVec 32 :=
  let c2_i32_60 : BitVec 32 := 2#32
  let c1024_i32_61 : BitVec 32 := 1024#32
  let v170 : BitVec 32 := Scalar.muli c2_i32_60 c1024_i32_61
  v170
def k0_mult4 : BitVec 32 :=
  let c3_i32_99 : BitVec 32 := 3#32
  let c1024_i32_100 : BitVec 32 := 1024#32
  let v255 : BitVec 32 := Scalar.muli c3_i32_99 c1024_i32_100
  v255
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  shapeCasts_S4096x1x8_S4096x8 : S4096x1x8.ShapeCasts S4096x8
  shapeCasts_S4096x1x4096_S4096x4096 : S4096x1x4096.ShapeCasts S4096x4096
  h_S512x1024 : 0 < S512x1024.numel
  shapeCasts_S512x1024_S512x1024 : S512x1024.ShapeCasts S512x1024
  inb_S512x8_S512x1_0_0 : ∀ a, (![0, 0] : Fin 2 → Nat) a + S512x1.size a ≤ S512x8.size a
  h_S512x1 : 0 < S512x1.numel
  shapeCasts_S512x1_S512x1 : S512x1.ShapeCasts S512x1
  broadcasts_S512x1_S512x1024 : S512x1.Broadcasts S512x1024
  inb_S512x8_S512x1_0_1 : ∀ a, (![0, 1] : Fin 2 → Nat) a + S512x1.size a ≤ S512x8.size a
  inb_S512x8_S512x1_0_2 : ∀ a, (![0, 2] : Fin 2 → Nat) a + S512x1.size a ≤ S512x8.size a
  inb_S512x8_S512x1_0_3 : ∀ a, (![0, 3] : Fin 2 → Nat) a + S512x1.size a ≤ S512x8.size a
  inb_S512x8_S512x1_0_4 : ∀ a, (![0, 4] : Fin 2 → Nat) a + S512x1.size a ≤ S512x8.size a
  inb_S512x8_S512x1_0_5 : ∀ a, (![0, 5] : Fin 2 → Nat) a + S512x1.size a ≤ S512x8.size a
  inb_S512x8_S512x1_0_6 : ∀ a, (![0, 6] : Fin 2 → Nat) a + S512x1.size a ≤ S512x8.size a
  inb_S512x8_S512x1_0_7 : ∀ a, (![0, 7] : Fin 2 → Nat) a + S512x1.size a ≤ S512x8.size a
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  k0_mult1_dvd : 1024 ∣ k0_mult1.toNat
  k0_off1_inb : ∀ (r : Fin 4), ∀ a, (k0_off1 (BitVec.ofNat 32 r.val)) a + S512x1024.size a ≤ S512x4096.size a
  k0_off1_packedbf16 : ∀ (r : Fin 4), (Rect.unit (s := S512x4096) (k0_off1 (BitVec.ofNat 32 r.val)) S512x1024.size (k0_off1_inb r)).PackedRows (EltTy.packing .bf16)
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .i32 = 32 ∨ (Rect.block (s := S4096x4096) S512x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S4096x8.size a
  hwx0_1 : ∀ i : grid0.Coords, EltTy.bits .f32 = 32 ∨ (Rect.block (s := S4096x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x1x8 : Shape := ⟨3, ![4096, 1, 8]⟩
abbrev S4096x1x4096 : Shape := ⟨3, ![4096, 1, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1x8, .f32⟩
  | .hbm, ⟨2, _⟩ => ⟨S4096x1x4096, .i32⟩
  | .hbm, ⟨3, _⟩ => ⟨S_, .i32⟩
  | .hbm, ⟨4, _⟩ => ⟨S4096x1x4096, .i32⟩
  | .hbm, ⟨5, _⟩ => ⟨S4096x1x4096, .i1⟩
  | .hbm, ⟨6, _⟩ => ⟨S_, .i32⟩
  | .hbm, ⟨7, _⟩ => ⟨S4096x1x4096, .i32⟩
  | .hbm, ⟨8, _⟩ => ⟨S4096x1x4096, .i32⟩
  | .hbm, ⟨9, _⟩ => ⟨S4096x1x4096, .i32⟩
  | .hbm, ⟨10, _⟩ => ⟨S4096x4096x1, .i32⟩
  | .hbm, ⟨11, _⟩ => ⟨S1, .i32⟩
  | .hbm, ⟨12, _⟩ => ⟨S_, .i32⟩
  | .hbm, ⟨13, _⟩ => ⟨S4096x4096x1, .i32⟩
  | .hbm, ⟨14, _⟩ => ⟨S4096x4096x1, .i1⟩
  | .hbm, ⟨15, _⟩ => ⟨S1x1x1, .i32⟩
  | .hbm, ⟨16, _⟩ => ⟨S4096x4096x1, .i32⟩
  | .hbm, ⟨17, _⟩ => ⟨S4096x4096x1, .i1⟩
  | .hbm, ⟨18, _⟩ => ⟨S4096x4096x1, .i1⟩
  | .hbm, ⟨19, _⟩ => ⟨S_, .i1⟩
  | .hbm, ⟨20, _⟩ => ⟨S4096x4096, .i1⟩
  | .hbm, ⟨21, _⟩ => ⟨S4096x1x4096, .f32⟩
  | .hbm, ⟨22, _⟩ => ⟨S4096x1x4096, .i1⟩
  | .hbm, ⟨23, _⟩ => ⟨S_, .f32⟩
  | .hbm, ⟨24, _⟩ => ⟨S4096x1x4096, .f32⟩
  | .hbm, ⟨25, _⟩ => ⟨S4096x1x4096, .f32⟩
  | .hbm, ⟨26, _⟩ => ⟨S4096x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S4096x1x4096 : S_.BroadcastsInDim S4096x1x4096 (![] : Fin 0 → Fin S4096x1x4096.rank)
  shapeCasts_S4096x1x4096_S4096x4096x1 : S4096x1x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bcast_S4096x4096_S4096x1x4096_0_2 : S4096x4096.BroadcastsInDim S4096x1x4096 (![0, 2] : Fin 2 → Fin S4096x1x4096.rank)
  shapeCasts_S4096x1x4096_S4096x4096 : S4096x1x4096.ShapeCasts S4096x4096
  gather_S4096x1x8_S4096x4096x1_S4096x1x4096_1_2_0_0_2_2_111_wf : GatherDims.WF S4096x1x8 S4096x4096x1 S4096x1x4096 [1] [2] [0] [2] [0] 2 ![1, 1, 1]
  dot_S4x2048x4096_S4096x4096_S4x2048x4096_2_1_01_0_n_n_wf : DotDims.WF S4x2048x4096 S4096x4096 S4x2048x4096 [2] [1] [0, 1] [0] [] []

variable [Facts₀]

def gather_S4096x1x8_S4096x4096x1_S4096x1x4096_1_2_0_0_2_2_111 : GatherDims S4096x1x8 S4096x4096x1 S4096x1x4096 where
  offsetDims := [1]
  collapsedSliceDims := [2]
  operandBatchingDims := [0]
  startIndicesBatchingDims := [0]
  startIndexMap := [2]
  indexVectorDim := 2
  sliceSizes := ![1, 1, 1]
  wf := gather_S4096x1x8_S4096x4096x1_S4096x1x4096_1_2_0_0_2_2_111_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KR0Defs.lean ====
/-
  Region 0 (the dequantization kernel), at any float instance: what one grid point does to its three windows.

  The grid has 8 points; point t handles rows 512·t … 512·t + 511 of the code matrix (window 0, a 512 × 4096 block),
  of the flattened codebook (window 1, a 512 × 8 block) and of the weight matrix it writes (window 2, a 512 × 4096
  block). The body walks the block's 4096 columns in four chunks of 1024: a chunk of codes is clamped into [0, 7],
  compared with each of 0 … 7, the matching codebook column selected (zero elsewhere), the eight selections added up
  and the sum narrowed to the weight format and stored over the chunk's columns. So the block it leaves is the overlay
  of four pieces, one per chunk, each a pure function of the code chunk and the eight codebook columns.
-/
import proofs.«419614_j73289321939386_3_alg».proof.Proof.Gen.Kernel.Launch
import proofs.«419614_j73289321939386_3_alg».proof.Proof.Gen.Kernel.Skeleton
import proofs.«419614_j73289321939386_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four column chunks of a 512 × 4096 block. -/
abbrev rc0 : Rect S512x4096 := Rect.unit (s := S512x4096) (k0_off1 0#32) S512x1024.size (k0_off1_inb 0)
abbrev rc1 : Rect S512x4096 := Rect.unit (s := S512x4096) (k0_off1 1#32) S512x1024.size (k0_off1_inb 1)
abbrev rc2 : Rect S512x4096 := Rect.unit (s := S512x4096) (k0_off1 2#32) S512x1024.size (k0_off1_inb 2)
abbrev rc3 : Rect S512x4096 := Rect.unit (s := S512x4096) (k0_off1 3#32) S512x1024.size (k0_off1_inb 3)
/-- The eight columns of a 512 × 8 codebook block. -/
abbrev rg0 : Rect S512x8 := Rect.unit (s := S512x8) ![0, 0] S512x1.size inb_S512x8_S512x1_0_0
abbrev rg1 : Rect S512x8 := Rect.unit (s := S512x8) ![0, 1] S512x1.size inb_S512x8_S512x1_0_1
abbrev rg2 : Rect S512x8 := Rect.unit (s := S512x8) ![0, 2] S512x1.size inb_S512x8_S512x1_0_2
abbrev rg3 : Rect S512x8 := Rect.unit (s := S512x8) ![0, 3] S512x1.size inb_S512x8_S512x1_0_3
abbrev rg4 : Rect S512x8 := Rect.unit (s := S512x8) ![0, 4] S512x1.size inb_S512x8_S512x1_0_4
abbrev rg5 : Rect S512x8 := Rect.unit (s := S512x8) ![0, 5] S512x1.size inb_S512x8_S512x1_0_5
abbrev rg6 : Rect S512x8 := Rect.unit (s := S512x8) ![0, 6] S512x1.size inb_S512x8_S512x1_0_6
abbrev rg7 : Rect S512x8 := Rect.unit (s := S512x8) ![0, 7] S512x1.size inb_S512x8_S512x1_0_7

/-- Chunk 0's stored value, from the chunk's codes and the eight codebook columns (the body's payloads composed
    in program order). -/
def chunk0 (cd : Vec F S512x1024 .i32) (g0 g1 g2 g3 g4 g5 g6 g7 : Vec F S512x1 .f32) : FVec F S512x1024 .bf16 :=
  k0_pay7 (k0_pay5 (k0_pay2 cd) (k0_pay3 cd g0 g1 g2) (k0_pay4 cd) g3 g4 g5 g6) (k0_pay6 (k0_pay2 cd) g7)
/-- Chunk 1's. -/
def chunk1 (cd : Vec F S512x1024 .i32) (g0 g1 g2 g3 g4 g5 g6 g7 : Vec F S512x1 .f32) : FVec F S512x1024 .bf16 :=
  k0_pay14 (k0_pay11 (k0_pay8 cd) (k0_pay9 cd g0 g1) (k0_pay10 cd g2) g3 g4 g5 g6) (k0_pay12 (k0_pay8 cd)) (k0_pay13 g7)
/-- Chunk 2's. -/
def chunk2 (cd : Vec F S512x1024 .i32) (g0 g1 g2 g3 g4 g5 g6 g7 : Vec F S512x1 .f32) : FVec F S512x1024 .bf16 :=
  k0_pay21 (k0_pay15 cd) (k0_pay19 (k0_pay15 cd) (k0_pay16 cd g0 g1) (k0_pay17 cd) (k0_pay18 g2) g3 g4 g5 g6) (k0_pay20) g7
/-- Chunk 3's. -/
def chunk3 (cd : Vec F S512x1024 .i32) (g0 g1 g2 g3 g4 g5 g6 g7 : Vec F S512x1 .f32) : FVec F S512x1024 .bf16 :=
  k0_pay1 (k0_pay22 cd) (k0_pay25 (k0_pay22 cd) (k0_pay23 cd g0 g1) (k0_pay24) g2 g3 g4 g5) (k0_pay26 (k0_pay22 cd)) (Scalar.ofBits .f32 0x00000000#32) (k0_pay27 g6) g7

/-- Window 2's staging buffer after the body, from the blocks of windows 0 and 1: its four stores as pieces, last first. -/
def out0_2 (x0 : Vec F S512x4096 .i32) (x1 : Vec F S512x8 .f32) : Vec F S512x4096 .bf16 :=
  View.canon [
    ⟨rc3, chunk3 (View.ld x0 rc3) (View.ld x1 rg0) (View.ld x1 rg1) (View.ld x1 rg2) (View.ld x1 rg3) (View.ld x1 rg4) (View.ld x1 rg5) (View.ld x1 rg6) (View.ld x1 rg7)⟩,
    ⟨rc2, chunk2 (View.ld x0 rc2) (View.ld x1 rg0) (View.ld x1 rg1) (View.ld x1 rg2) (View.ld x1 rg3) (View.ld x1 rg4) (View.ld x1 rg5) (View.ld x1 rg6) (View.ld x1 rg7)⟩,
    ⟨rc1, chunk1 (View.ld x0 rc1) (View.ld x1 rg0) (View.ld x1 rg1) (View.ld x1 rg2) (View.ld x1 rg3) (View.ld x1 rg4) (View.ld x1 rg5) (View.ld x1 rg6) (View.ld x1 rg7)⟩,
    ⟨rc0, chunk0 (View.ld x0 rc0) (View.ld x1 rg0) (View.ld x1 rg1) (View.ld x1 rg2) (View.ld x1 rg3) (View.ld x1 rg4) (View.ld x1 rg5) (View.ld x1 rg6) (View.ld x1 rg7)⟩]

/-- The proof data of pipeline 0 on core `c`: the arrays as the region finds them; after the body at point `t` each
    input's buffer at its block and the output's at `out0_2` of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end R0

end Cert.Kernel.Hand

end
-- ==== Proof.KR0Body.lean ====
/-
  Region 0's body obligation: at every grid point the dequantization body, run on the staging buffers the pipeline
  hands it, leaves the two input blocks in place and the output buffer at `out0_2` of them.
-/
import proofs.«419614_j73289321939386_3_alg».proof.Proof.KR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- Window 0 is fetched at every point, so when the body runs its staging buffer holds the block fetched there. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  try rfl

/-- Window 1 likewise. -/
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  try rfl

/-- The four column chunks tile the 512 × 4096 buffer, so every index lies in one of them. -/
theorem cover0_2 (p3 : rc3.shape.Idx → Elt F .bf16) (p2 : rc2.shape.Idx → Elt F .bf16) (p1 : rc1.shape.Idx → Elt F .bf16)
    (p0 : rc0.shape.Idx → Elt F .bf16) (y : S512x4096.Idx) :
    ∃ pc ∈ ([⟨rc3, p3⟩, ⟨rc2, p2⟩, ⟨rc1, p1⟩, ⟨rc0, p0⟩] : List (View.Piece (Elt F) S512x4096 .bf16)), y ∈ pc.1.set :=
  View.cover_of_tiled [⟨rc3, p3⟩, ⟨rc2, p2⟩, ⟨rc1, p1⟩, ⟨rc0, p0⟩] S512x1024.size (by rfl) y

/-- The body on whole staging memrefs — the code block at `x0`, the codebook block at `x1`, the output's at anything —
    runs to the continuation holding the two inputs as they were and the output at `out0_2 x0 x1`: its four stores, each
    over one column chunk, leave the overlay of the four pieces, and the chunks tile the buffer. -/
theorem sound_kernel0 (c : Dev nD) (E : Set ℕ) (i : grid0.Coords)
    (arg1 : Memref sig .tc .vmem S512x4096 .i32) (harg1 : arg1.IsWhole)
    (arg2 : Memref sig .tc .vmem S512x8 .f32) (harg2 : arg2.IsWhole)
    (arg3 : Memref sig .tc .vmem S512x4096 .bf16) (harg3 : arg3.IsWhole)
    (x0 : Vec F S512x4096 .i32) (x1 : Vec F S512x8 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  exact View.read_writes_eq_canon _ _ _ (cover0_2 _ _ _ _)

/-- The body at point `t`, on what the pipeline calls it with: from the invariant, the core's dues and each window's
    current staging buffer at what it then holds, to the same invariant and dues and each buffer at what the body
    leaves. The two inputs' buffers hold their blocks (both windows are fetched at every point), so the kernel's
    triple applies at those blocks; the invariant and the dues pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for pipeline 0, at every point: the three windows conjoined one by one. -/
theorem body_obligation0 (c : Dev nD) : BodyObligation (dat0 (F := F) V c) (defs₀ (F := F)) Variants.none () Set.univ := fun t => by
  rw [bigSep_W0, bigSep_W0]
  exact sound_body0 V c t

end R0

end Cert.Kernel.Hand

end
-- ==== Proof.KR1Defs.lean ====
/-
  Region 1 (the matrix product), at any float instance: what one grid point does to its windows and to the
  accumulator it keeps in scratch memory.

  The grid is 8 × 2 × 8, walked with the last axis fastest: point t has row block t / 16 (1024 rows of x), column
  block (t / 8) % 2 (2048 rows of the weight matrix) and contraction block t % 8 (512 columns of both). At a point
  whose contraction block is 0 the body first stores zeros over the accumulator; at every point it adds to the
  accumulator the product of the x block (narrowed to the weight format) with the transposed weight block; at a point
  whose contraction block is 7 it copies the accumulator into the output block, which is written back there.
  So after point t the accumulator holds the products of contraction blocks 0 … t % 8 added up from zero.
-/
import proofs.«419614_j73289321939386_3_alg».proof.Proof.Gen.Kernel.Launch
import proofs.«419614_j73289321939386_3_alg».proof.Proof.Gen.Kernel.Skeleton
import proofs.«419614_j73289321939386_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the whole scratch buffer. -/
abbrev scM1 : Memref sig .tc .vmem S1024x2048 .f32 := Memref.whole cc1_scratch0

/-- What point `n` leaves in the accumulator: the point's product added to zeros where the contraction block is 0,
    to what the point before left elsewhere. -/
def accAt1 (c : Dev nD) : (n : ℕ) → n < cfg1.N → Vec F S1024x2048 .f32
  | 0, h => k1_pay2 (iblk1 V c 0 ⟨0, h⟩) (k1_pay1 (F := F)) (iblk1 V c 1 ⟨0, h⟩)
  | n + 1, h =>
    if (n + 1) % 8 = 0 then k1_pay2 (iblk1 V c 0 ⟨n + 1, h⟩) (k1_pay1 (F := F)) (iblk1 V c 1 ⟨n + 1, h⟩)
    else k1_pay2 (iblk1 V c 0 ⟨n + 1, h⟩) (accAt1 c n (Nat.lt_of_succ_lt h)) (iblk1 V c 1 ⟨n + 1, h⟩)

/-- At a point whose contraction block is 0 the accumulator restarts from zeros. -/
theorem accAt1_reset (c : Dev nD) (t : Fin cfg1.N) (h : t.val % 8 = 0) :
    accAt1 V c t.val t.isLt = k1_pay2 (iblk1 V c 0 t) (k1_pay1 (F := F)) (iblk1 V c 1 t) := by
  obtain ⟨n, hn⟩ := t
  cases n with
  | zero => rfl
  | succ n => exact if_pos h

/-- Elsewhere it adds to what the point before left. -/
theorem accAt1_step (c : Dev nD) (t : Fin cfg1.N) (h : ¬ t.val % 8 = 0) :
    accAt1 V c t.val t.isLt = k1_pay2 (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- The scoped buffers of the core that are neither a staging buffer of this region nor its accumulator: region 0's six
    staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: before the first point every scoped buffer no window stages at anything
    and the generator register at some state; afterwards the same with the accumulator at what the point before left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- The proof data of pipeline 1 on core `c`: the arrays as the region finds them; after the body at point `t` each
    input's buffer at its block and the output's at the accumulator's contents (consulted only where the block is
    written back: contraction block 7); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end R1

end Cert.Kernel.Hand

end
-- ==== Proof.KR1Body.lean ====
/-
  Region 1's body obligation: at every grid point the matrix-product body, run on the staging buffers the pipeline
  hands it and on the accumulator as the invariant holds it, leaves the two input blocks in place, the accumulator at
  this point's contents and, where the contraction block is 7, the output buffer at the accumulator's contents.
-/
import proofs.«419614_j73289321939386_3_alg».proof.Proof.KR1Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-! ## The body's two conditions in closed form -/

/-- The first conditional's test, from the grid coordinates: the contraction block is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's test: the contraction block is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off contraction block 7 the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At contraction block 7 it is live. -/
theorem liveAt1_2 : ∀ t : Fin cfg1.N, cond1_1 (grid1.coords t) → cfg1.idle 2 (grid1.coords t) = false := by decide +kernel

/-! ## The staging memrefs at a point, as the pipeline passes them to the body -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)

/-! ## Accesses of a whole buffer -/

/-- The zero offsets of a whole-buffer access, as the constant function. -/
theorem off1_zero : (![0, 0] : Fin 2 → Nat) = fun _ => 0 := funext fun a => by fin_cases a <;> rfl

/-- A load of the whole of a whole memref reads its contents. -/
theorem readAt_whole1 {κ : Kind} {sp : Space} {S : Shape} {e : EltTy} (m : Memref sig κ sp S e) (h : m.IsWhole)
    {off : Fin S.rank → Nat} (hz : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hz]

/-- A store over the whole buffer, made last, leaves its payload, whatever was stored before and whatever the buffer held. -/
theorem read_store_whole1 {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-! ## The body on any whole staging memrefs, case by case -/

/-- Contraction block 0: zeros are stored over the accumulator, read back, and the product of the two blocks added to
    them is stored over it; the output buffer is not touched. -/
theorem run1_A (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : cond1_0 i) (hc1 : ¬cond1_1 i)
    (x0 : Vec F S1024x512 .f32) (x1 : Vec F S2048x512 .bf16) (xi2 : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi2
            ∗ owns (c : Thread nD τ) arg6 fullShare (k1_pay2 x0 (k1_pay1 (F := F)) x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  sl_unfold_run_names
  rw [read_store_whole1 _ _ off1_zero, View.readCov_unit_zero _ off1_zero, readAt_whole1 _ _ off1_zero, readAt_whole1 _ _ off1_zero]

/-- Contraction blocks 1 … 6: the product of the two blocks, added to what the accumulator holds, is stored over it; the
    output buffer is not touched. -/
theorem run1_B (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : ¬cond1_0 i) (hc1 : ¬cond1_1 i)
    (x0 : Vec F S1024x512 .f32) (x1 : Vec F S2048x512 .bf16) (xi2 : Vec F S1024x2048 .f32) (xs : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1 ∗ owns (c : Thread nD τ) arg5 fullShare xi2
            ∗ owns (c : Thread nD τ) arg6 fullShare (k1_pay2 x0 xs x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2
  obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  sl_unfold_run_names
  rw [read_store_whole1 _ _ off1_zero, readAt_whole1 _ _ off1_zero, readAt_whole1 _ _ off1_zero, readAt_whole1 _ _ off1_zero]

/-- Contraction block 7: as at blocks 1 … 6, and then the accumulator, read back, is stored over the whole output buffer,
    whatever that held. -/
theorem run1_C (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : ¬cond1_0 i) (hc1 : cond1_1 i)
    (x0 : Vec F S1024x512 .f32) (x1 : Vec F S2048x512 .bf16) (xi2 : Vec F S1024x2048 .f32) (xs : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 xs x1)
            ∗ owns (c : Thread nD τ) arg6 fullShare (k1_pay2 x0 xs x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2
  obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [read_store_whole1 _ _ off1_zero, View.readCov_unit_zero _ off1_zero, readAt_whole1 _ _ off1_zero, readAt_whole1 _ _ off1_zero, readAt_whole1 _ _ off1_zero]
  iexists _; isplitr
  swap; · iexact HS0
  ipureintro
  sl_unfold_run_names
  rw [read_store_whole1 _ _ off1_zero, readAt_whole1 _ _ off1_zero, readAt_whole1 _ _ off1_zero, readAt_whole1 _ _ off1_zero]

/-! ## What the body is handed -/

/-- Each input's current staging buffer holds its block at every point, fetched there or not: where it is not fetched
    the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The class's invariant, opened: region 0's staging buffers, the accumulator at some contents, the generator register. -/
theorem PhiA1_open (c : Dev nD) :
    (Pipeline.ΦA (Val := Elt F) (U := UR sig nD τ) spec1 c : sProp 𝕄)
      ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

/-- And closed again. -/
theorem PhiA1_close (c : Dev nD) :
    iprop(rest1 (F := F) c ∗ (∃ d, owns (c : Thread nD τ) scM1 fullShare d) ∗ (∃ r, prngReg c r))
      ⊢ (Pipeline.ΦA (Val := Elt F) (U := UR sig nD τ) spec1 c : sProp 𝕄) := by
  unfold Pipeline.ΦA rest1; rw [scopedRest1_eq]; simp only [scM1, owns_whole]
  iintro ⟨⟨H1, H2, H3, H4, H5, H6⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The body at any point. The inputs' buffers hold their blocks; the point's contraction block says which of the three
    runs applies; the invariant hands the body the accumulator — at anything where the contraction block is 0, where it is
    zeroed first, else at what the point before left — and takes it back at this point's contents; off contraction block 7
    the output buffer goes back as it came, at block 7 it holds the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt1_reset V c t h0]
    by_cases hz : t.val = 0
    · rw [PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨HR, HS, Hg⟩
      iapply (run1_A c (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
    · rw [PhiS1_pos V c _ _ hz]
      iintro ⟨⟨HR, HS, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [accAt1_step V c t h0, PhiS1_pos V c _ _ hz]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_step V c t h0]
      iintro ⟨⟨HR, HS, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t) ((dat1 V c).before 2 t d2)
        (accAt1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HR, HS, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) ((dat1 V c).before 2 t d2)
        (accAt1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (Val := Elt F) (U := UR sig nD τ) spec1 c ⊢ (dat1 (F := F) V c).Φ 0 := by
  rw [show (dat1 (F := F) V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 (F := F) V c).Φ (Fin.last cfg1.N) ⊢ Pipeline.ΦA (Val := Elt F) (U := UR sig nD τ) spec1 c := by
  rw [show (dat1 (F := F) V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HR, HS, Hg⟩
  iapply (PhiA1_close (F := F) c)
  isplitl [HR]; · iexact HR
  isplitl [HS]; · iexists _; iexact HS
  iexact Hg

end R1

end Cert.Kernel.Hand

end
-- ==== Proof.KRun.lean ====
/-
  The run of the whole program, at any float instance: @main is a stretch of three reshapes, the dequantization
  region, the matrix-product region and one reshape. The contents of the core's unscoped buffers are followed from
  the launch memory through the four segments: a host stretch applies its operations; a region leaves its windows'
  arrays at what its write-backs fold to and every other buffer as it found it. Every weakly fair execution
  terminates, and the final memory holds each of those buffers at the last boundary's contents: the three arguments
  as launched, and the result at the reshape of what the second region leaves in its output array.
-/
import proofs.«419614_j73289321939386_3_alg».proof.Proof.KR0Body
import proofs.«419614_j73289321939386_3_alg».proof.Proof.KR1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch. -/
abbrev W4 : Dev nD → Valuation τ sig (Elt F) := fun c => StableHlo.after hostOps2 (W3 m c)

/-! ### No segment writes an argument -/

theorem hostOps0_keeps (c : Dev nD) (W : Valuation τ sig (Elt F)) (b : Ref sig .tc) (h0 : b ≠ main_v0) (h1 : b ≠ main_v1) (h2 : b ≠ main_v2) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))
theorem hostOps2_keeps (c : Dev nD) (W : Valuation τ sig (Elt F)) (b : Ref sig .tc) (h5 : b ≠ main_v5) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h5))

theorem W4_main_arg0 (c : Dev nD) : W4 m c (Proc.devRef .tc main_arg0) = m ((c : Thread nD τ).loc main_arg0) :=
  (hostOps2_keeps c _ main_arg0 (by decide)).trans <| (W3_of_ne m c main_arg0 (by decide)).trans <|
    (W2_of_ne m c main_arg0 (by decide)).trans <| (hostOps0_keeps c _ main_arg0 (by decide) (by decide) (by decide)).trans rfl
theorem W4_main_arg1 (c : Dev nD) : W4 m c (Proc.devRef .tc main_arg1) = m ((c : Thread nD τ).loc main_arg1) :=
  (hostOps2_keeps c _ main_arg1 (by decide)).trans <| (W3_of_ne m c main_arg1 (by decide)).trans <|
    (W2_of_ne m c main_arg1 (by decide)).trans <| (hostOps0_keeps c _ main_arg1 (by decide) (by decide) (by decide)).trans rfl
theorem W4_main_arg2 (c : Dev nD) : W4 m c (Proc.devRef .tc main_arg2) = m ((c : Thread nD τ).loc main_arg2) :=
  (hostOps2_keeps c _ main_arg2 (by decide)).trans <| (W3_of_ne m c main_arg2 (by decide)).trans <|
    (W2_of_ne m c main_arg2 (by decide)).trans <| (hostOps0_keeps c _ main_arg2 (by decide) (by decide) (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. The generator register
    and the scoped rest enter the region's invariant (`hin1`) and come back out of it (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA (Val := Elt F) (U := UR sig nD τ) spec1 c ⊢ (pdats m 1 c).Φ 0 := hin1 (V2 m) c
    iintro ⟨Hp, -, Hr⟩
    iapply h1
    unfold Pipeline.ΦA
    isplitl [Hr]; · iexact Hr
    iexact Hp
  hout c := by
    rw [Pipeline.ownSems0_none]
    have h2 : (Pipeline.ΦA (Val := Elt F) (U := UR sig nD τ) spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W4 m c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h c => h c)

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.Kernel.Hand

end
-- ==== Proof.R0Defs.lean ====
/-
  Region 0 (the dequantization kernel), at any float instance: what one grid point does to its three windows.

  The grid has 8 points; point t handles rows 512·t … 512·t + 511 of the code matrix (window 0, a 512 × 4096 block),
  of the flattened codebook (window 1, a 512 × 8 block) and of the weight matrix it writes (window 2, a 512 × 4096
  block). The body walks the block's 4096 columns in four chunks of 1024: a chunk of codes is clamped into [0, 7],
  compared with each of 0 … 7, the matching codebook column selected (zero elsewhere), the eight selections added up
  and the sum narrowed to the weight format and stored over the chunk's columns. So the block it leaves is the overlay
  of four pieces, one per chunk, each a pure function of the code chunk and the eight codebook columns.
-/
import proofs.«419614_j73289321939386_3_alg».proof.Proof.Gen.KernelIdeal.Launch
import proofs.«419614_j73289321939386_3_alg».proof.Proof.Gen.KernelIdeal.Skeleton
import proofs.«419614_j73289321939386_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four column chunks of a 512 × 4096 block. -/
abbrev rc0 : Rect S512x4096 := Rect.unit (s := S512x4096) (k0_off1 0#32) S512x1024.size (k0_off1_inb 0)
abbrev rc1 : Rect S512x4096 := Rect.unit (s := S512x4096) (k0_off1 1#32) S512x1024.size (k0_off1_inb 1)
abbrev rc2 : Rect S512x4096 := Rect.unit (s := S512x4096) (k0_off1 2#32) S512x1024.size (k0_off1_inb 2)
abbrev rc3 : Rect S512x4096 := Rect.unit (s := S512x4096) (k0_off1 3#32) S512x1024.size (k0_off1_inb 3)
/-- The eight columns of a 512 × 8 codebook block. -/
abbrev rg0 : Rect S512x8 := Rect.unit (s := S512x8) ![0, 0] S512x1.size inb_S512x8_S512x1_0_0
abbrev rg1 : Rect S512x8 := Rect.unit (s := S512x8) ![0, 1] S512x1.size inb_S512x8_S512x1_0_1
abbrev rg2 : Rect S512x8 := Rect.unit (s := S512x8) ![0, 2] S512x1.size inb_S512x8_S512x1_0_2
abbrev rg3 : Rect S512x8 := Rect.unit (s := S512x8) ![0, 3] S512x1.size inb_S512x8_S512x1_0_3
abbrev rg4 : Rect S512x8 := Rect.unit (s := S512x8) ![0, 4] S512x1.size inb_S512x8_S512x1_0_4
abbrev rg5 : Rect S512x8 := Rect.unit (s := S512x8) ![0, 5] S512x1.size inb_S512x8_S512x1_0_5
abbrev rg6 : Rect S512x8 := Rect.unit (s := S512x8) ![0, 6] S512x1.size inb_S512x8_S512x1_0_6
abbrev rg7 : Rect S512x8 := Rect.unit (s := S512x8) ![0, 7] S512x1.size inb_S512x8_S512x1_0_7

/-- Chunk 0's stored value, from the chunk's codes and the eight codebook columns (the body's payloads composed
    in program order). -/
def chunk0 (cd : Vec F S512x1024 .i32) (g0 g1 g2 g3 g4 g5 g6 g7 : Vec F S512x1 .f32) : FVec F S512x1024 .bf16 :=
  k0_pay7 (k0_pay5 (k0_pay2 cd) (k0_pay3 cd g0 g1 g2) (k0_pay4 cd) g3 g4 g5 g6) (k0_pay6 (k0_pay2 cd) g7)
/-- Chunk 1's. -/
def chunk1 (cd : Vec F S512x1024 .i32) (g0 g1 g2 g3 g4 g5 g6 g7 : Vec F S512x1 .f32) : FVec F S512x1024 .bf16 :=
  k0_pay14 (k0_pay11 (k0_pay8 cd) (k0_pay9 cd g0 g1) (k0_pay10 cd g2) g3 g4 g5 g6) (k0_pay12 (k0_pay8 cd)) (k0_pay13 g7)
/-- Chunk 2's. -/
def chunk2 (cd : Vec F S512x1024 .i32) (g0 g1 g2 g3 g4 g5 g6 g7 : Vec F S512x1 .f32) : FVec F S512x1024 .bf16 :=
  k0_pay21 (k0_pay15 cd) (k0_pay19 (k0_pay15 cd) (k0_pay16 cd g0 g1) (k0_pay17 cd) (k0_pay18 g2) g3 g4 g5 g6) (k0_pay20) g7
/-- Chunk 3's. -/
def chunk3 (cd : Vec F S512x1024 .i32) (g0 g1 g2 g3 g4 g5 g6 g7 : Vec F S512x1 .f32) : FVec F S512x1024 .bf16 :=
  k0_pay1 (k0_pay22 cd) (k0_pay25 (k0_pay22 cd) (k0_pay23 cd g0 g1) (k0_pay24) g2 g3 g4 g5) (k0_pay26 (k0_pay22 cd)) (Scalar.ofBits .f32 0x00000000#32) (k0_pay27 g6) g7

/-- Window 2's staging buffer after the body, from the blocks of windows 0 and 1: its four stores as pieces, last first. -/
def out0_2 (x0 : Vec F S512x4096 .i32) (x1 : Vec F S512x8 .f32) : Vec F S512x4096 .bf16 :=
  View.canon [
    ⟨rc3, chunk3 (View.ld x0 rc3) (View.ld x1 rg0) (View.ld x1 rg1) (View.ld x1 rg2) (View.ld x1 rg3) (View.ld x1 rg4) (View.ld x1 rg5) (View.ld x1 rg6) (View.ld x1 rg7)⟩,
    ⟨rc2, chunk2 (View.ld x0 rc2) (View.ld x1 rg0) (View.ld x1 rg1) (View.ld x1 rg2) (View.ld x1 rg3) (View.ld x1 rg4) (View.ld x1 rg5) (View.ld x1 rg6) (View.ld x1 rg7)⟩,
    ⟨rc1, chunk1 (View.ld x0 rc1) (View.ld x1 rg0) (View.ld x1 rg1) (View.ld x1 rg2) (View.ld x1 rg3) (View.ld x1 rg4) (View.ld x1 rg5) (View.ld x1 rg6) (View.ld x1 rg7)⟩,
    ⟨rc0, chunk0 (View.ld x0 rc0) (View.ld x1 rg0) (View.ld x1 rg1) (View.ld x1 rg2) (View.ld x1 rg3) (View.ld x1 rg4) (View.ld x1 rg5) (View.ld x1 rg6) (View.ld x1 rg7)⟩]

/-- The proof data of pipeline 0 on core `c`: the arrays as the region finds them; after the body at point `t` each
    input's buffer at its block and the output's at `out0_2` of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end R0

end Cert.KernelIdeal.Hand

end
-- ==== Proof.R0Body.lean ====
/-
  Region 0's body obligation: at every grid point the dequantization body, run on the staging buffers the pipeline
  hands it, leaves the two input blocks in place and the output buffer at `out0_2` of them.
-/
import proofs.«419614_j73289321939386_3_alg».proof.Proof.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R0
variable (V : (c : Dev nD) → (b : Ref sig .tc) → Buf (Elt F) ((c : Thread nD τ).loc b))

/-- Window 0 is fetched at every point, so when the body runs its staging buffer holds the block fetched there. -/
theorem before0_0 (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  try rfl

/-- Window 1 likewise. -/
theorem before0_1 (c : Dev nD) (t : Fin cfg0.N) (d) : (dat0 V c).before 1 t d = iblk0 V c 1 t := by
  rw [(dat0 V c).before_fetched 1 t (fetch0_1 t) d]
  unfold Dat.fetched Dat.blockOf iblk0
  rw [A_eq0]
  try rfl

/-- The four column chunks tile the 512 × 4096 buffer, so every index lies in one of them. -/
theorem cover0_2 (p3 : rc3.shape.Idx → Elt F .bf16) (p2 : rc2.shape.Idx → Elt F .bf16) (p1 : rc1.shape.Idx → Elt F .bf16)
    (p0 : rc0.shape.Idx → Elt F .bf16) (y : S512x4096.Idx) :
    ∃ pc ∈ ([⟨rc3, p3⟩, ⟨rc2, p2⟩, ⟨rc1, p1⟩, ⟨rc0, p0⟩] : List (View.Piece (Elt F) S512x4096 .bf16)), y ∈ pc.1.set :=
  View.cover_of_tiled [⟨rc3, p3⟩, ⟨rc2, p2⟩, ⟨rc1, p1⟩, ⟨rc0, p0⟩] S512x1024.size (by rfl) y

/-- The body on whole staging memrefs — the code block at `x0`, the codebook block at `x1`, the output's at anything —
    runs to the continuation holding the two inputs as they were and the output at `out0_2 x0 x1`: its four stores, each
    over one column chunk, leave the overlay of the four pieces, and the chunks tile the buffer. -/
theorem sound_kernel0 (c : Dev nD) (E : Set ℕ) (i : grid0.Coords)
    (arg1 : Memref sig .tc .vmem S512x4096 .i32) (harg1 : arg1.IsWhole)
    (arg2 : Memref sig .tc .vmem S512x8 .f32) (harg2 : arg2.IsWhole)
    (arg3 : Memref sig .tc .vmem S512x4096 .bf16) (harg3 : arg3.IsWhole)
    (x0 : Vec F S512x4096 .i32) (x1 : Vec F S512x8 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  exact View.read_writes_eq_canon _ _ _ (cover0_2 _ _ _ _)

/-- The body at point `t`, on what the pipeline calls it with: from the invariant, the core's dues and each window's
    current staging buffer at what it then holds, to the same invariant and dues and each buffer at what the body
    leaves. The two inputs' buffers hold their blocks (both windows are fetched at every point), so the kernel's
    triple applies at those blocks; the invariant and the dues pass through unread. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for pipeline 0, at every point: the three windows conjoined one by one. -/
theorem body_obligation0 (c : Dev nD) : BodyObligation (dat0 (F := F) V c) (defs₀ (F := F)) Variants.none () Set.univ := fun t => by
  rw [bigSep_W0, bigSep_W0]
  exact sound_body0 V c t

end R0

end Cert.KernelIdeal.Hand

end
-- ==== Proof.R1Defs.lean ====
/-
  Region 1 (the matrix product), at any float instance: what one grid point does to its windows and to the
  accumulator it keeps in scratch memory.

  The grid is 8 × 2 × 8, walked with the last axis fastest: point t has row block t / 16 (1024 rows of x), column
  block (t / 8) % 2 (2048 rows of the weight matrix) and contraction block t % 8 (512 columns of both). At a point
  whose contraction block is 0 the body first stores zeros over the accumulator; at every point it adds to the
  accumulator the product of the x block (narrowed to the weight format) with the transposed weight block; at a point
  whose contraction block is 7 it copies the accumulator into the output block, which is written back there.
  So after point t the accumulator holds the products of contraction blocks 0 … t % 8 added up from zero.
-/
import proofs.«419614_j73289321939386_3_alg».proof.Proof.Gen.KernelIdeal.Launch
import proofs.«419614_j73289321939386_3_alg».proof.Proof.Gen.KernelIdeal.Skeleton
import proofs.«419614_j73289321939386_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator's memref: the whole scratch buffer. -/
abbrev scM1 : Memref sig .tc .vmem S1024x2048 .f32 := Memref.whole cc1_scratch0

/-- What point `n` leaves in the accumulator: the point's product added to zeros where the contraction block is 0,
    to what the point before left elsewhere. -/
def accAt1 (c : Dev nD) : (n : ℕ) → n < cfg1.N → Vec F S1024x2048 .f32
  | 0, h => k1_pay2 (iblk1 V c 0 ⟨0, h⟩) (k1_pay1 (F := F)) (iblk1 V c 1 ⟨0, h⟩)
  | n + 1, h =>
    if (n + 1) % 8 = 0 then k1_pay2 (iblk1 V c 0 ⟨n + 1, h⟩) (k1_pay1 (F := F)) (iblk1 V c 1 ⟨n + 1, h⟩)
    else k1_pay2 (iblk1 V c 0 ⟨n + 1, h⟩) (accAt1 c n (Nat.lt_of_succ_lt h)) (iblk1 V c 1 ⟨n + 1, h⟩)

/-- At a point whose contraction block is 0 the accumulator restarts from zeros. -/
theorem accAt1_reset (c : Dev nD) (t : Fin cfg1.N) (h : t.val % 8 = 0) :
    accAt1 V c t.val t.isLt = k1_pay2 (iblk1 V c 0 t) (k1_pay1 (F := F)) (iblk1 V c 1 t) := by
  obtain ⟨n, hn⟩ := t
  cases n with
  | zero => rfl
  | succ n => exact if_pos h

/-- Elsewhere it adds to what the point before left. -/
theorem accAt1_step (c : Dev nD) (t : Fin cfg1.N) (h : ¬ t.val % 8 = 0) :
    accAt1 V c t.val t.isLt = k1_pay2 (iblk1 V c 0 t) (accAt1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-- The scoped buffers of the core that are neither a staging buffer of this region nor its accumulator: region 0's six
    staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position `n`: before the first point every scoped buffer no window stages at anything
    and the generator register at some state; afterwards the same with the accumulator at what the point before left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- The proof data of pipeline 1 on core `c`: the arrays as the region finds them; after the body at point `t` each
    input's buffer at its block and the output's at the accumulator's contents (consulted only where the block is
    written back: contraction block 7); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end R1

end Cert.KernelIdeal.Hand

end
-- ==== Proof.R1Body.lean ====
/-
  Region 1's body obligation: at every grid point the matrix-product body, run on the staging buffers the pipeline
  hands it and on the accumulator as the invariant holds it, leaves the two input blocks in place, the accumulator at
  this point's contents and, where the contraction block is 7, the output buffer at the accumulator's contents.
-/
import proofs.«419614_j73289321939386_3_alg».proof.Proof.R1Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section R1
variable (V : (c : Dev nD) → (b : Ref sig .tc) → Buf (Elt F) ((c : Thread nD τ).loc b))

/-! ## The body's two conditions in closed form -/

/-- The first conditional's test, from the grid coordinates: the contraction block is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's test: the contraction block is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off contraction block 7 the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At contraction block 7 it is live. -/
theorem liveAt1_2 : ∀ t : Fin cfg1.N, cond1_1 (grid1.coords t) → cfg1.idle 2 (grid1.coords t) = false := by decide +kernel

/-! ## The staging memrefs at a point, as the pipeline passes them to the body -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .f32 := win1_2.stage (cfg1.slots t 2)
abbrev hs1_2 (t : Fin cfg1.N) : (ms1_2 t).IsWhole := hstage1_2 ((cfg1.slots t 2).cast nbuf1_2)

/-! ## Accesses of a whole buffer -/

/-- The zero offsets of a whole-buffer access, as the constant function. -/
theorem off1_zero : (![0, 0] : Fin 2 → Nat) = fun _ => 0 := funext fun a => by fin_cases a <;> rfl

/-- A load of the whole of a whole memref reads its contents. -/
theorem readAt_whole1 {κ : Kind} {sp : Space} {S : Shape} {e : EltTy} (m : Memref sig κ sp S e) (h : m.IsWhole)
    {off : Fin S.rank → Nat} (hz : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hz]

/-- A store over the whole buffer, made last, leaves its payload, whatever was stored before and whatever the buffer held. -/
theorem read_store_whole1 {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-! ## The body on any whole staging memrefs, case by case -/

/-- Contraction block 0: zeros are stored over the accumulator, read back, and the product of the two blocks added to
    them is stored over it; the output buffer is not touched. -/
theorem run1_A (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : cond1_0 i) (hc1 : ¬cond1_1 i)
    (x0 : Vec F S1024x512 .f32) (x1 : Vec F S2048x512 .bf16) (xi2 : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi2
            ∗ owns (c : Thread nD τ) arg6 fullShare (k1_pay2 x0 (k1_pay1 (F := F)) x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  sl_unfold_run_names
  rw [read_store_whole1 _ _ off1_zero, View.readCov_unit_zero _ off1_zero, readAt_whole1 _ _ off1_zero, readAt_whole1 _ _ off1_zero]

/-- Contraction blocks 1 … 6: the product of the two blocks, added to what the accumulator holds, is stored over it; the
    output buffer is not touched. -/
theorem run1_B (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : ¬cond1_0 i) (hc1 : ¬cond1_1 i)
    (x0 : Vec F S1024x512 .f32) (x1 : Vec F S2048x512 .bf16) (xi2 : Vec F S1024x2048 .f32) (xs : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1 ∗ owns (c : Thread nD τ) arg5 fullShare xi2
            ∗ owns (c : Thread nD τ) arg6 fullShare (k1_pay2 x0 xs x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2
  obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS0
  ipureintro
  sl_unfold_run_names
  rw [read_store_whole1 _ _ off1_zero, readAt_whole1 _ _ off1_zero, readAt_whole1 _ _ off1_zero, readAt_whole1 _ _ off1_zero]

/-- Contraction block 7: as at blocks 1 … 6, and then the accumulator, read back, is stored over the whole output buffer,
    whatever that held. -/
theorem run1_C (c : Dev nD) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1024x2048 .f32) (harg5 : arg5.IsWhole)
    (arg6 : Memref sig .tc .vmem S1024x2048 .f32) (harg6 : arg6.IsWhole)
    (hc0 : ¬cond1_0 i) (hc1 : cond1_1 i)
    (x0 : Vec F S1024x512 .f32) (x1 : Vec F S2048x512 .bf16) (xi2 : Vec F S1024x2048 .f32) (xs : Vec F S1024x2048 .f32)
    (K : PUnit → sProp 𝕄) :
    iprop(owns (c : Thread nD τ) arg3 fullShare x0 ∗ owns (c : Thread nD τ) arg4 fullShare x1 ∗ owns (c : Thread nD τ) arg5 fullShare xi2
        ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 xs x1)
            ∗ owns (c : Thread nD τ) arg6 fullShare (k1_pay2 x0 xs x1)) -∗ K ⟨⟩))
      ⊢ wp frame (wpE (defs₀ (F := F)) Variants.none c none) Set.univ (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg3.eq_unread hf0; obtain rfl := harg4.eq_unread hf1; obtain rfl := harg5.eq_unread hf2
  obtain rfl := harg6.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [read_store_whole1 _ _ off1_zero, View.readCov_unit_zero _ off1_zero, readAt_whole1 _ _ off1_zero, readAt_whole1 _ _ off1_zero, readAt_whole1 _ _ off1_zero]
  iexists _; isplitr
  swap; · iexact HS0
  ipureintro
  sl_unfold_run_names
  rw [read_store_whole1 _ _ off1_zero, readAt_whole1 _ _ off1_zero, readAt_whole1 _ _ off1_zero, readAt_whole1 _ _ off1_zero]

/-! ## What the body is handed -/

/-- Each input's current staging buffer holds its block at every point, fetched there or not: where it is not fetched
    the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The class's invariant, opened: region 0's staging buffers, the accumulator at some contents, the generator register. -/
theorem PhiA1_open (c : Dev nD) :
    (Pipeline.ΦA (Val := Elt F) (U := UR sig nD τ) spec1 c : sProp 𝕄)
      ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H1, H2, H3, H4, H5, H6, HS⟩, Hg⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  iexact Hg

/-- And closed again. -/
theorem PhiA1_close (c : Dev nD) :
    iprop(rest1 (F := F) c ∗ (∃ d, owns (c : Thread nD τ) scM1 fullShare d) ∗ (∃ r, prngReg c r))
      ⊢ (Pipeline.ΦA (Val := Elt F) (U := UR sig nD τ) spec1 c : sProp 𝕄) := by
  unfold Pipeline.ΦA rest1; rw [scopedRest1_eq]; simp only [scM1, owns_whole]
  iintro ⟨⟨H1, H2, H3, H4, H5, H6⟩, HS, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The body at any point. The inputs' buffers hold their blocks; the point's contraction block says which of the three
    runs applies; the invariant hands the body the accumulator — at anything where the contraction block is 0, where it is
    zeroed first, else at what the point before left — and takes it back at this point's contents; off contraction block 7
    the output buffer goes back as it came, at block 7 it holds the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [accAt1_reset V c t h0]
    by_cases hz : t.val = 0
    · rw [PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨HR, HS, Hg⟩
      iapply (run1_A c (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
    · rw [PhiS1_pos V c _ _ hz]
      iintro ⟨⟨HR, HS, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [accAt1_step V c t h0, PhiS1_pos V c _ _ hz]
    by_cases h1 : t.val % 8 = 7
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_step V c t h0]
      iintro ⟨⟨HR, HS, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t) ((dat1 V c).before 2 t d2)
        (accAt1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HR, HS, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) ((dat1 V c).before 2 t d2)
        (accAt1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA (Val := Elt F) (U := UR sig nD τ) spec1 c ⊢ (dat1 (F := F) V c).Φ 0 := by
  rw [show (dat1 (F := F) V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 (F := F) V c).Φ (Fin.last cfg1.N) ⊢ Pipeline.ΦA (Val := Elt F) (U := UR sig nD τ) spec1 c := by
  rw [show (dat1 (F := F) V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HR, HS, Hg⟩
  iapply (PhiA1_close (F := F) c)
  isplitl [HR]; · iexact HR
  isplitl [HS]; · iexists _; iexact HS
  iexact Hg

end R1

end Cert.KernelIdeal.Hand

end
-- ==== Proof.Run.lean ====
/-
  The run of the whole program, at any float instance: @main is a stretch of three reshapes, the dequantization
  region, the matrix-product region and one reshape. The contents of the core's unscoped buffers are followed from
  the launch memory through the four segments: a host stretch applies its operations; a region leaves its windows'
  arrays at what its write-backs fold to and every other buffer as it found it. Every weakly fair execution
  terminates, and the final memory holds each of those buffers at the last boundary's contents: the three arguments
  as launched, and the result at the reshape of what the second region leaves in its output array.
-/
import proofs.«419614_j73289321939386_3_alg».proof.Proof.R0Body
import proofs.«419614_j73289321939386_3_alg».proof.Proof.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch. -/
abbrev W4 : Dev nD → Valuation τ sig (Elt F) := fun c => StableHlo.after hostOps2 (W3 m c)

/-! ### No segment writes an argument -/

theorem hostOps0_keeps (c : Dev nD) (W : Valuation τ sig (Elt F)) (b : Ref sig .tc) (h0 : b ≠ main_v0) (h1 : b ≠ main_v1) (h2 : b ≠ main_v2) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))
theorem hostOps2_keeps (c : Dev nD) (W : Valuation τ sig (Elt F)) (b : Ref sig .tc) (h5 : b ≠ main_v5) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h5))

theorem W4_main_arg0 (c : Dev nD) : W4 m c (Proc.devRef .tc main_arg0) = m ((c : Thread nD τ).loc main_arg0) :=
  (hostOps2_keeps c _ main_arg0 (by decide)).trans <| (W3_of_ne m c main_arg0 (by decide)).trans <|
    (W2_of_ne m c main_arg0 (by decide)).trans <| (hostOps0_keeps c _ main_arg0 (by decide) (by decide) (by decide)).trans rfl
theorem W4_main_arg1 (c : Dev nD) : W4 m c (Proc.devRef .tc main_arg1) = m ((c : Thread nD τ).loc main_arg1) :=
  (hostOps2_keeps c _ main_arg1 (by decide)).trans <| (W3_of_ne m c main_arg1 (by decide)).trans <|
    (W2_of_ne m c main_arg1 (by decide)).trans <| (hostOps0_keeps c _ main_arg1 (by decide) (by decide) (by decide)).trans rfl
theorem W4_main_arg2 (c : Dev nD) : W4 m c (Proc.devRef .tc main_arg2) = m ((c : Thread nD τ).loc main_arg2) :=
  (hostOps2_keeps c _ main_arg2 (by decide)).trans <| (W3_of_ne m c main_arg2 (by decide)).trans <|
    (W2_of_ne m c main_arg2 (by decide)).trans <| (hostOps0_keeps c _ main_arg2 (by decide) (by decide) (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. The generator register
    and the scoped rest enter the region's invariant (`hin1`) and come back out of it (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA (Val := Elt F) (U := UR sig nD τ) spec1 c ⊢ (pdats m 1 c).Φ 0 := hin1 (V2 m) c
    iintro ⟨Hp, -, Hr⟩
    iapply h1
    unfold Pipeline.ΦA
    isplitl [Hr]; · iexact Hr
    iexact Hp
  hout c := by
    rw [Pipeline.ownSems0_none]
    have h2 : (Pipeline.ΦA (Val := Elt F) (U := UR sig nD τ) spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W4 m c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h c => h c)

/-- The frame: every weakly fair execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.KernelIdeal.Hand

end
-- ==== Proof.Spec.lean ====
/-
  The common value of the two programs, as one function of the three argument arrays.

  A weight is looked up in its row's eight-entry codebook: W[o, k] = grid[o, 0, clamp(code[o, 0, k])], where the
  code is read as a signed word and clamped into [0, 7]. The result is the contraction of x with W over the shared
  input axis: y[b, s, o] = Σ_k x[b, s, k] · W[o, k], a sum of 4096 products on the extended reals.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SG : Shape := ⟨3, ![4096, 1, 8]⟩
abbrev SC : Shape := ⟨3, ![4096, 1, 4096]⟩
abbrev SXf : Shape := ⟨2, ![8192, 4096]⟩
abbrev SGf : Shape := ⟨2, ![4096, 8]⟩
abbrev SW : Shape := ⟨2, ![4096, 4096]⟩

/-- A code word read signed and clamped into the codebook's range [0, 7]. -/
def code (b : BitVec 32) : Fin 8 := ⟨min b.toInt.toNat 7, by omega⟩

/-- In range, the clamp is the word itself. -/
theorem code_val_of_lt (b : BitVec 32) (h0 : 0 ≤ b.toInt) (h8 : b.toInt < 8) : (code b).val = b.toInt.toNat := by
  unfold code; simp only; omega

/-- The dequantized weight matrix, flat: W[o, k] = grid[o, clamp(code[o, k])]. -/
def Wq (cds : SW.Idx → BitVec 32) (g : SGf.Idx → EReal) : SW.Idx → EReal :=
  fun i => g (ix2 (i 0) (code (cds i)))

/-- The flat product: Y[r, o] = Σ_k x[r, k] · w[o, k]. -/
def MM (x : SXf.Idx → EReal) (w : SW.Idx → EReal) : SXf.Idx → EReal :=
  fun i => ∑ k : Fin 4096, x (ix2 (i 0) k) * w (ix2 (i 1) k)

/-- The result: y[b, s, o] = Σ_k x[b, s, k] · grid[o, 0, clamp(code[o, 0, k])]. -/
def G (x : SX.Idx → EReal) (g : SG.Idx → EReal) (cd : SC.Idx → BitVec 32) : SX.Idx → EReal :=
  fun i => ∑ k : Fin 4096, x (ix3 (i 0) (i 1) k) * g (ix3 (i 2) (0 : Fin 1) (code (cd (ix3 (i 2) (0 : Fin 1) k))))

end Cert.Spec

end
-- ==== Proof.SpecFlat.lean ====
/-
  The index algebra that joins the kernel's three stages: flatten x to 8192 × 4096, the codebook to 4096 × 8 and
  the codes to 4096 × 4096; look every weight up (Wq); take the flat product (MM); unflatten the result to
  4 × 2048 × 4096. Read at an index (b, s, o), every reshape moves an index to the one with the same row-major
  position — (b, s, k) ↔ (2048·b + s, k), (o, 0, e) ↔ (o, e) — so the composite is the specification's G.
-/
import proofs.«419614_j73289321939386_3_alg».proof.Proof.Spec
import Idealize.ShloMosaic.Lib.Pipeline.Value
import Idealize.ShloMosaic.Lib.ValueIdx

noncomputable section

open scoped BigOperators

namespace Cert.Spec

open Idealize.ShloMosaic Idealize.ShloMosaic.ValueIdx

/-- The flattened x at (2048·b + s, k) is x at (b, s, k). -/
theorem flatX_apply (x : SX.Idx → EReal) (hx : SX.ShapeCasts SXf) (b : Fin 4) (s : Fin 2048) (k : Fin 4096)
    (r : Fin 8192) (hr : r.val = b.val * 2048 + s.val) :
    shapeCast SXf x hx (ix2 r k) = x (ix3 b s k) := by
  refine shapeCast_apply x hx (ix2 r k) (ix3 b s k) ?_
  rw [Shape.rowMajor_val_three, Shape.rowMajor_val_two]
  show (b.val * 2048 + s.val) * 4096 + k.val = r.val * 4096 + k.val
  rw [hr]

/-- The flattened codebook at (o, e) is the codebook at (o, 0, e). -/
theorem flatG_apply (g : SG.Idx → EReal) (hg : SG.ShapeCasts SGf) (o : Fin 4096) (e : Fin 8) :
    shapeCast SGf g hg (ix2 o e) = g (ix3 o (0 : Fin 1) e) := by
  refine shapeCast_apply g hg (ix2 o e) (ix3 o (0 : Fin 1) e) ?_
  rw [Shape.rowMajor_val_three, Shape.rowMajor_val_two]
  show (o.val * 1 + 0) * 8 + e.val = o.val * 8 + e.val
  omega

/-- The flattened codes at (o, k) are the codes at (o, 0, k). -/
theorem flatC_apply (cd : SC.Idx → BitVec 32) (hc : SC.ShapeCasts SW) (o : Fin 4096) (k : Fin 4096) :
    shapeCast SW cd hc (ix2 o k) = cd (ix3 o (0 : Fin 1) k) := by
  refine shapeCast_apply cd hc (ix2 o k) (ix3 o (0 : Fin 1) k) ?_
  rw [Shape.rowMajor_val_three, Shape.rowMajor_val_two]
  show (o.val * 1 + 0) * 4096 + k.val = o.val * 4096 + k.val
  omega

/-- Flatten, look up, multiply, unflatten: the composite is G. -/
theorem unflat_MM_Wq (x : SX.Idx → EReal) (g : SG.Idx → EReal) (cd : SC.Idx → BitVec 32)
    (hx : SX.ShapeCasts SXf) (hg : SG.ShapeCasts SGf) (hc : SC.ShapeCasts SW) (hy : SXf.ShapeCasts SX) :
    shapeCast SX (MM (shapeCast SXf x hx) (Wq (shapeCast SW cd hc) (shapeCast SGf g hg))) hy = G x g cd := by
  funext i
  obtain ⟨b, s, o, rfl⟩ : ∃ (b : Fin 4) (s : Fin 2048) (o : Fin 4096), i = ix3 b s o := ⟨i 0, i 1, i 2, eq_ix3 i⟩
  have hrlt : b.val * 2048 + s.val < 8192 := by have := b.isLt; have := s.isLt; omega
  let r : Fin 8192 := ⟨b.val * 2048 + s.val, hrlt⟩
  have e1 : shapeCast SX (MM (shapeCast SXf x hx) (Wq (shapeCast SW cd hc) (shapeCast SGf g hg))) hy (ix3 b s o)
      = MM (shapeCast SXf x hx) (Wq (shapeCast SW cd hc) (shapeCast SGf g hg)) (ix2 r o) := by
    refine shapeCast_apply _ hy (ix3 b s o) (ix2 r o) ?_
    rw [Shape.rowMajor_val_three, Shape.rowMajor_val_two]
    show (b.val * 2048 + s.val) * 4096 + o.val = (b.val * 2048 + s.val) * 4096 + o.val
    rfl
  rw [e1]
  unfold MM G
  refine Finset.sum_congr rfl fun k _ => ?_
  show shapeCast SXf x hx (ix2 r k) * Wq (shapeCast SW cd hc) (shapeCast SGf g hg) (ix2 o k) = _
  rw [flatX_apply x hx b s k r rfl]
  unfold Wq
  show x (ix3 b s k) * shapeCast SGf g hg (ix2 o (code (shapeCast SW cd hc (ix2 o k)))) = _
  rw [flatC_apply cd hc o k, flatG_apply g hg o _]

end Cert.Spec

end
-- ==== Proof.Bridge.lean ====
/-
  The kernel's result, at the ideal instance, as the specification's function of the launch arguments.

  The last boundary's contents of the result buffer are the unflattening of what the product region leaves in its
  output array; that array is the flat product MM of the region's two input arrays; the first of those is the
  flattened x, untouched by the dequantization region; the second is what the dequantization region leaves in its
  output array, the looked-up weights Wq of the flattened codes and the flattened codebook. Flatten, look up,
  multiply, unflatten is G (Cert.Spec.unflat_MM_Wq).
-/
import proofs.«419614_j73289321939386_3_alg».proof.Proof.Run
import proofs.«419614_j73289321939386_3_alg».proof.Proof.SpecFlat
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The first stretch flattens x into `main_v0`, -/
theorem W1_main_v0 (c : Dev nD) :
    (W1 m c (Proc.devRef .tc main_v0) : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl
/-- the codebook into `main_v1`, -/
theorem W1_main_v1 (c : Dev nD) :
    (W1 m c (Proc.devRef .tc main_v1) : S4096x8.Idx → EReal)
      = shapeCast S4096x8 (m ((c : Thread nD τ).loc main_arg1)) shapeCasts_S4096x1x8_S4096x8 := by
  show StableHlo.after hostOps0 (fun b => m (c, b)) (Proc.devRef .tc main_v1) = _
  after_results
  rfl
/-- and the codes into `main_v2`. -/
theorem W1_main_v2 (c : Dev nD) :
    (W1 m c (Proc.devRef .tc main_v2) : S4096x4096.Idx → BitVec 32)
      = shapeCast S4096x4096 (m ((c : Thread nD τ).loc main_arg2)) shapeCasts_S4096x1x4096_S4096x4096 := by
  show StableHlo.after hostOps0 (fun b => m (c, b)) (Proc.devRef .tc main_v2) = _
  after_results
  rfl
/-- The last stretch unflattens `main_v4` into the result. -/
theorem W4_main_v5 (c : Dev nD) :
    (W4 m c (Proc.devRef .tc main_v5) : S4x2048x4096.Idx → EReal)
      = shapeCast S4x2048x4096 (W3 m c (Proc.devRef .tc main_v4) : S8192x4096.Idx → EReal) shapeCasts_S8192x4096_S4x2048x4096 := by
  show StableHlo.after hostOps2 (W3 m c) (Proc.devRef .tc main_v5) = _
  after_results
  rfl

/-- THE KERNEL'S VALUE, given what each region leaves in its output array as one whole-array function of its
    input arrays (`h0`: the looked-up weights; `h1`: the flat product): the result buffer ends at G of the arguments. -/
theorem kernel_value
    (h0 : ∀ (V : (c : Dev nD) → (b : Ref sig .tc) → Buf (Elt Ideal) ((c : Thread nD τ).loc b)) (c : Dev nD),
      ((dat0 (F := Ideal) V c).arrAt 2 cfg0.N : S4096x4096.Idx → EReal) = Cert.Spec.Wq (V c main_v2) (V c main_v1))
    (h1 : ∀ (V : (c : Dev nD) → (b : Ref sig .tc) → Buf (Elt Ideal) ((c : Thread nD τ).loc b)) (c : Dev nD),
      ((dat1 (F := Ideal) V c).arrAt 2 cfg1.N : S8192x4096.Idx → EReal) = Cert.Spec.MM (V c main_v0) (V c main_v3))
    (c : Dev nD) :
    (W4 m c (Proc.devRef .tc main_v5) : S4x2048x4096.Idx → EReal)
      = Cert.Spec.G (m ((c : Thread nD τ).loc main_arg0)) (m ((c : Thread nD τ).loc main_arg1)) (m ((c : Thread nD τ).loc main_arg2)) := by
  -- the product region's output array, and its two input arrays as that region finds them
  have e4 : (W3 m c (Proc.devRef .tc main_v4) : S8192x4096.Idx → EReal) = Cert.Spec.MM (V2 m c main_v0) (V2 m c main_v3) :=
    (W3_arr m c 2).trans (h1 (V2 m) c)
  have e0 : (V2 m c main_v0 : S8192x4096.Idx → EReal)
      = shapeCast S8192x4096 (m ((c : Thread nD τ).loc main_arg0)) shapeCasts_S4x2048x4096_S8192x4096 :=
    (W2_of_ne m c main_v0 (by decide)).trans (W1_main_v0 m c)
  -- the dequantization region's output array, and its two input arrays as that region finds them
  have e3 : (V2 m c main_v3 : S4096x4096.Idx → EReal) = Cert.Spec.Wq (V1 m c main_v2) (V1 m c main_v1) :=
    (W2_arr m c 2).trans (h0 (V1 m) c)
  have e2 : (V1 m c main_v2 : S4096x4096.Idx → BitVec 32)
      = shapeCast S4096x4096 (m ((c : Thread nD τ).loc main_arg2)) shapeCasts_S4096x1x4096_S4096x4096 := W1_main_v2 m c
  have e1 : (V1 m c main_v1 : S4096x8.Idx → EReal)
      = shapeCast S4096x8 (m ((c : Thread nD τ).loc main_arg1)) shapeCasts_S4096x1x8_S4096x8 := W1_main_v1 m c
  rw [W4_main_v5, e4, e0, e3, e2, e1]
  exact Cert.Spec.unflat_MM_Wq _ _ _ _ _ _ _

end Cert.KernelIdeal.Hand

end
-- ==== Proof.R0Value.lean ====
/-
  Region 0 (the dequantization kernel) at the ideal instance: what the region leaves in its output array, as one
  function of the two arrays it reads.

  On the extended reals every float operation is exact and a change of float format is the identity. A chunk of codes
  is clamped, as signed words, into [0, 7]; for each g of 0 … 7 the codebook column g is selected where the clamped code
  is g and zero elsewhere; the eight selections are added onto zero. At a place (p, q) seven of the terms are zero and
  one is the codebook entry of row p at the clamped code, so the chunk's stored value there is grid[p, clamp(code[p, q])]
  (`deq_apply`). The four chunks tile the block's 4096 columns, so the block the body leaves is that same function of the
  code block and the codebook block at every place (`out0_2_apply`). Point t of the grid handles rows 512·t … 512·t + 511
  of all three arrays, so what it writes back is block t of W[o, k] = grid[o, clamp(code[o, k])] (`flushed0_2_eq`); row r
  is covered by point r / 512 (`covered0_2`); hence the array after the region is W (`final0`).
-/
import proofs.«419614_j73289321939386_3_alg».proof.Proof.R0Defs
import proofs.«419614_j73289321939386_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open Idealize.ShloMosaic.Tactic

/-- The signed clamp of a code word into [0, 7], as the body computes it: the smaller of 7 and the larger of 0 and the word. -/
def clampW (b : BitVec 32) : BitVec 32 := IntOp.minsi 7#32 (IntOp.maxsi 0#32 b)

/-- As a word, the signed clamp is the clamped code of the specification. -/
theorem clampW_eq (b : BitVec 32) : clampW b = BitVec.ofNat 32 (Cert.Spec.code b).val := by
  unfold clampW IntOp.minsi IntOp.maxsi Cert.Spec.code
  apply BitVec.eq_of_toInt_eq
  have h7 : (7#32 : BitVec 32).toInt = 7 := by decide
  have h0 : (0#32 : BitVec 32).toInt = 0 := by decide
  by_cases hneg : b.slt 0#32
  · have hlt : b.toInt < 0 := by simpa [BitVec.slt, h0] using hneg
    rw [if_pos hneg]
    have : ¬ (7#32 : BitVec 32).slt 0#32 := by decide
    rw [if_neg this]
    have hm : min b.toInt.toNat 7 = 0 := by omega
    simp only [hm]
  · have hge : 0 ≤ b.toInt := by simpa [BitVec.slt, h0] using hneg
    rw [if_neg hneg]
    by_cases h7b : (7#32 : BitVec 32).slt b
    · have : 7 < b.toInt := by simpa [BitVec.slt, h7] using h7b
      rw [if_pos h7b]
      have hm : min b.toInt.toNat 7 = 7 := by omega
      simp only [hm]
    · have hle : b.toInt ≤ 7 := by simpa [BitVec.slt, h7] using h7b
      rw [if_neg h7b]
      have hm : min b.toInt.toNat 7 = b.toInt.toNat := by omega
      simp only [hm]
      obtain ⟨n, hn⟩ : ∃ n : ℕ, b.toInt = (n : ℤ) := ⟨b.toInt.toNat, by omega⟩
      have hn7 : n ≤ 7 := by omega
      rw [hn, Int.toNat_natCast]
      interval_cases n <;> rfl

/-- Two words below 8 compare equal exactly when they are the same number. -/
theorem cmp_tab : ∀ (k g : Fin 8), IntOp.cmpi .eq (BitVec.ofNat 32 k.val) (BitVec.ofNat 32 g.val) = if k = g then 1#1 else 0#1 := by
  decide

/-- One selection: the codebook column broadcast along the row where the clamped code is the word `g`, zero elsewhere. -/
def selCol (cl : IVec S512x1024 32) (g : BitVec 32) (col : Vec Ideal S512x1 .f32) : FVec Ideal S512x1024 .f32 :=
  select (cmpi .eq cl (broadcast S512x1024 g)) (broadcastTo S512x1024 col broadcasts_S512x1_S512x1024)
    (broadcast S512x1024 (Scalar.ofBits .f32 0x00000000#32))

/-- A chunk of codes clamped into [0, 7]. -/
def clampV (cd : Vec Ideal S512x1024 .i32) : IVec S512x1024 32 :=
  minsi (broadcast S512x1024 7#32) (maxsi (broadcast S512x1024 0#32) cd)

/-- What every chunk stores: zero plus the eight selections in order, narrowed to the weight format. -/
def deq (cd : Vec Ideal S512x1024 .i32) (g0 g1 g2 g3 g4 g5 g6 g7 : Vec Ideal S512x1 .f32) : FVec Ideal S512x1024 .bf16 :=
  truncf .bf16
    (addf (addf (addf (addf (addf (addf (addf (addf (broadcast S512x1024 (Scalar.ofBits .f32 0x00000000#32))
      (selCol (clampV cd) 0#32 g0)) (selCol (clampV cd) 1#32 g1)) (selCol (clampV cd) 2#32 g2)) (selCol (clampV cd) 3#32 g3))
      (selCol (clampV cd) 4#32 g4)) (selCol (clampV cd) 5#32 g5)) (selCol (clampV cd) 6#32 g6)) (selCol (clampV cd) 7#32 g7))
    bitsLt_bf16_f32

theorem chunk0_eq (cd : Vec Ideal S512x1024 .i32) (g0 g1 g2 g3 g4 g5 g6 g7 : Vec Ideal S512x1 .f32) :
    chunk0 cd g0 g1 g2 g3 g4 g5 g6 g7 = deq cd g0 g1 g2 g3 g4 g5 g6 g7 := by
  unfold chunk0 k0_pay7 k0_pay5 k0_pay6 k0_pay3 k0_pay4 k0_pay2
  simp only [shapeCast_self]
  rfl

theorem chunk1_eq (cd : Vec Ideal S512x1024 .i32) (g0 g1 g2 g3 g4 g5 g6 g7 : Vec Ideal S512x1 .f32) :
    chunk1 cd g0 g1 g2 g3 g4 g5 g6 g7 = deq cd g0 g1 g2 g3 g4 g5 g6 g7 := by
  unfold chunk1 k0_pay14 k0_pay11 k0_pay12 k0_pay13 k0_pay9 k0_pay10 k0_pay8
  simp only [shapeCast_self]
  rfl

theorem chunk2_eq (cd : Vec Ideal S512x1024 .i32) (g0 g1 g2 g3 g4 g5 g6 g7 : Vec Ideal S512x1 .f32) :
    chunk2 cd g0 g1 g2 g3 g4 g5 g6 g7 = deq cd g0 g1 g2 g3 g4 g5 g6 g7 := by
  unfold chunk2 k0_pay21 k0_pay19 k0_pay20 k0_pay16 k0_pay17 k0_pay18 k0_pay15
  simp only [shapeCast_self]
  rfl

theorem chunk3_eq (cd : Vec Ideal S512x1024 .i32) (g0 g1 g2 g3 g4 g5 g6 g7 : Vec Ideal S512x1 .f32) :
    chunk3 cd g0 g1 g2 g3 g4 g5 g6 g7 = deq cd g0 g1 g2 g3 g4 g5 g6 g7 := by
  unfold chunk3 k0_pay1 k0_pay25 k0_pay26 k0_pay27 k0_pay23 k0_pay24 k0_pay22
  simp only [shapeCast_self]
  rfl

/-- Read at (p, q), a chunk's stored value is the codebook entry of row p at the clamped code there: seven selections
    are zero and one is the entry. -/
theorem deq_apply (cd : Vec Ideal S512x1024 .i32) (g0 g1 g2 g3 g4 g5 g6 g7 : Vec Ideal S512x1 .f32) (p : Fin 512) (q : Fin 1024) :
    deq cd g0 g1 g2 g3 g4 g5 g6 g7 (ix2 p q)
      = (![g0 (ix2 p (0 : Fin 1)), g1 (ix2 p (0 : Fin 1)), g2 (ix2 p (0 : Fin 1)), g3 (ix2 p (0 : Fin 1)),
            g4 (ix2 p (0 : Fin 1)), g5 (ix2 p (0 : Fin 1)), g6 (ix2 p (0 : Fin 1)), g7 (ix2 p (0 : Fin 1))] : Fin 8 → EReal)
          (Cert.Spec.code (cd (ix2 p q))) := by
  have hb : ∀ col : Vec Ideal S512x1 .f32,
      broadcastTo S512x1024 col broadcasts_S512x1_S512x1024 (ix2 p q) = col (ix2 p (0 : Fin 1)) :=
    fun col => broadcastTo_apply col _ (ix2 p q) (ix2 p (0 : Fin 1)) (fun a => by match a with | ⟨0, _⟩ => rfl | ⟨1, _⟩ => rfl)
  have hsel : ∀ (g : Fin 8) (col : Vec Ideal S512x1 .f32),
      selCol (clampV cd) (BitVec.ofNat 32 g.val) col (ix2 p q)
        = if Cert.Spec.code (cd (ix2 p q)) = g then (col (ix2 p (0 : Fin 1)) : EReal) else 0 := by
    intro g col
    show Scalar.select (IntOp.cmpi .eq (clampW (cd (ix2 p q))) (BitVec.ofNat 32 g.val))
      (broadcastTo S512x1024 col broadcasts_S512x1_S512x1024 (ix2 p q)) (Ideal.ofBits .f32 0x00000000#32) = _
    rw [hb, clampW_eq, cmp_tab, Ideal.ofBits_zero_f32]
    split_ifs with h
    · exact select_one _ _
    · exact select_zero _ _
  show Ideal.ofBits .f32 0x00000000#32 + selCol (clampV cd) 0#32 g0 (ix2 p q) + selCol (clampV cd) 1#32 g1 (ix2 p q)
      + selCol (clampV cd) 2#32 g2 (ix2 p q) + selCol (clampV cd) 3#32 g3 (ix2 p q) + selCol (clampV cd) 4#32 g4 (ix2 p q)
      + selCol (clampV cd) 5#32 g5 (ix2 p q) + selCol (clampV cd) 6#32 g6 (ix2 p q) + selCol (clampV cd) 7#32 g7 (ix2 p q) = _
  rw [show selCol (clampV cd) 0#32 g0 (ix2 p q) = _ from hsel 0 g0, show selCol (clampV cd) 1#32 g1 (ix2 p q) = _ from hsel 1 g1,
    show selCol (clampV cd) 2#32 g2 (ix2 p q) = _ from hsel 2 g2, show selCol (clampV cd) 3#32 g3 (ix2 p q) = _ from hsel 3 g3,
    show selCol (clampV cd) 4#32 g4 (ix2 p q) = _ from hsel 4 g4, show selCol (clampV cd) 5#32 g5 (ix2 p q) = _ from hsel 5 g5,
    show selCol (clampV cd) 6#32 g6 (ix2 p q) = _ from hsel 6 g6, show selCol (clampV cd) 7#32 g7 (ix2 p q) = _ from hsel 7 g7,
    Ideal.ofBits_zero_f32]
  generalize Cert.Spec.code (cd (ix2 p q)) = k
  fin_cases k <;> simp

/-- One piece of the output buffer, read at its own index: a column chunk at any column offset (row offset zero) holds,
    at each of its places, the codebook entry of that row at the clamped code of that place of the code block. -/
theorem deqPiece_apply (x0 : Vec Ideal S512x4096 .i32) (x1 : Vec Ideal S512x8 .f32) (off : Fin 2 → ℕ)
    (inb : ∀ a, off a + S512x1024.size a ≤ S512x4096.size a) (h0 : off 0 = 0) (x : S512x1024.Idx) :
    deq (View.ld x0 (Rect.unit (s := S512x4096) off S512x1024.size inb)) (View.ld x1 rg0) (View.ld x1 rg1) (View.ld x1 rg2)
        (View.ld x1 rg3) (View.ld x1 rg4) (View.ld x1 rg5) (View.ld x1 rg6) (View.ld x1 rg7) x
      = x1 (ix2 ((Rect.unit (s := S512x4096) off S512x1024.size inb).emb x 0)
          (Cert.Spec.code (x0 ((Rect.unit (s := S512x4096) off S512x1024.size inb).emb x)))) := by
  obtain ⟨p, q, rfl⟩ : ∃ (p : Fin 512) (q : Fin 1024), x = ix2 p q := ⟨x 0, x 1, eq_ix2 x⟩
  rw [deq_apply]
  have hrow : (Rect.unit (s := S512x4096) off S512x1024.size inb).emb (ix2 p q) 0 = p := by
    apply Fin.ext
    rw [Rect.emb_apply]
    show off 0 + 1 * p.val = p.val
    rw [h0]; omega
  rw [hrow]
  show _ = x1 (ix2 p (Cert.Spec.code (x0 ((Rect.unit (s := S512x4096) off S512x1024.size inb).toLoadRect.idx (ix2 p q)))))
  generalize Cert.Spec.code (x0 ((Rect.unit (s := S512x4096) off S512x1024.size inb).toLoadRect.idx (ix2 p q))) = k
  have hcol : ∀ (g : Fin 8) (inbg : ∀ a, (![0, g.val] : Fin 2 → ℕ) a + S512x1.size a ≤ S512x8.size a),
      View.ld x1 (Rect.unit (s := S512x8) ![0, g.val] S512x1.size inbg) (ix2 p (0 : Fin 1)) = x1 (ix2 p g) := by
    intro g inbg
    show x1 _ = x1 _
    congr 1
    funext a
    apply Fin.ext
    match a with
    | ⟨0, _⟩ => show 0 + 1 * p.val = p.val; omega
    | ⟨1, _⟩ => show g.val + 1 * 0 = g.val; omega
  fin_cases k
  · exact hcol 0 _
  · exact hcol 1 _
  · exact hcol 2 _
  · exact hcol 3 _
  · exact hcol 4 _
  · exact hcol 5 _
  · exact hcol 6 _
  · exact hcol 7 _

/-- The four column chunks tile the 512 × 4096 buffer. -/
theorem chunks_cover (p3 : rc3.shape.Idx → Elt Ideal .bf16) (p2 : rc2.shape.Idx → Elt Ideal .bf16)
    (p1 : rc1.shape.Idx → Elt Ideal .bf16) (p0 : rc0.shape.Idx → Elt Ideal .bf16) (y : S512x4096.Idx) :
    ∃ pc ∈ ([⟨rc3, p3⟩, ⟨rc2, p2⟩, ⟨rc1, p1⟩, ⟨rc0, p0⟩] : List (View.Piece (Elt Ideal) S512x4096 .bf16)), y ∈ pc.1.set :=
  View.cover_of_tiledL [⟨rc3, p3⟩, ⟨rc2, p2⟩, ⟨rc1, p1⟩, ⟨rc0, p0⟩] S512x1024.size (by sl_kernel_rfl) y

/-- The block the body leaves, as one function of the code block and the codebook block: at (p, col) the codebook entry
    of row p at the clamped code at (p, col). -/
theorem out0_2_apply (x0 : Vec Ideal S512x4096 .i32) (x1 : Vec Ideal S512x8 .f32) (y : S512x4096.Idx) :
    out0_2 x0 x1 y = x1 (ix2 (y 0) (Cert.Spec.code (x0 y))) := by
  unfold out0_2
  refine View.canon_apply_of_pieces (Val := Elt Ideal) (fun y => x1 (ix2 (y 0) (Cert.Spec.code (x0 y)))) _ ?_ y
    (chunks_cover _ _ _ _ y)
  intro pc hpc x
  simp only [List.mem_cons, List.not_mem_nil, or_false] at hpc
  rcases hpc with rfl | rfl | rfl | rfl
  · exact (congrFun (chunk3_eq _ _ _ _ _ _ _ _ _) x).trans (deqPiece_apply x0 x1 _ _ rfl x)
  · exact (congrFun (chunk2_eq _ _ _ _ _ _ _ _ _) x).trans (deqPiece_apply x0 x1 _ _ rfl x)
  · exact (congrFun (chunk1_eq _ _ _ _ _ _ _ _ _) x).trans (deqPiece_apply x0 x1 _ _ rfl x)
  · exact (congrFun (chunk0_eq _ _ _ _ _ _ _ _ _) x).trans (deqPiece_apply x0 x1 _ _ rfl x)

section Array
variable (V : (c : Dev nD) → (b : Ref sig .tc) → Buf (Elt Ideal) ((c : Thread nD τ).loc b))

/-- The printed index maps, decided over the grid's 8 points: at point t every window's block index is (t, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row block of the weight matrix is some point's. -/
theorem idx_onto0 : ∀ q : Fin 8, ∃ t : Fin cfg0.N, win0_2.index t = ![q.val, 0] :=
  (by decide +kernel : ∀ q : Fin 8, ∃ t : Fin grid0.N, win0_2.index t = ![q.val, 0])

/-- What point t writes back is block t of the dequantized weight matrix of the arrays as the region finds them. -/
theorem flushed0_2_eq (c : Dev nD) (t : Fin cfg0.N) :
    (dat0 (F := Ideal) V c).flushed 2 t
      = ((cfg0.win 2).blk t).view.read (Elt Ideal) (Cert.Spec.Wq (V c main_v2) (V c main_v1)) := by
  show (cfg0.win 2).cut (grid0.coords t) ((dat0 V c).after 2 t) = _
  rw [after0_2]
  obtain ⟨e00, e01, e10, e11, e20, e21⟩ := idx_facts0 t
  funext j
  show out0_2 (iblk0 V c 0 t) (iblk0 V c 1 t) j
    = Cert.Spec.Wq (V c main_v2) (V c main_v1) (((cfg0.win 2).blk t).view.emb j)
  rw [out0_2_apply]
  unfold iblk0 Cert.Spec.Wq
  show V c main_v1 (((cfg0.win 1).blk t).view.emb (ix2 (j 0) (Cert.Spec.code (V c main_v2 (((cfg0.win 0).blk t).view.emb j)))))
    = V c main_v1 (ix2 ((((cfg0.win 2).blk t).view.emb j) 0) (Cert.Spec.code (V c main_v2 (((cfg0.win 2).blk t).view.emb j))))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; rw [e00, e20]
    | ⟨1, _⟩ => show win0_0.index t (1 : Fin 2) * 4096 + 1 * (j 1).val = win0_2.index t (1 : Fin 2) * 4096 + 1 * (j 1).val; rw [e01, e21]
  rw [h0]
  generalize Cert.Spec.code (V c main_v2 (((cfg0.win 2).blk t).view.emb j)) = k
  congr 1
  funext a; apply Fin.ext
  match a with
  | ⟨0, _⟩ => show win0_1.index t (0 : Fin 2) * 512 + 1 * (j 0).val = win0_2.index t (0 : Fin 2) * 512 + 1 * (j 0).val; rw [e10, e20]
  | ⟨1, _⟩ => show win0_1.index t (1 : Fin 2) * 8 + 1 * k.val = k.val; rw [e11]; omega

/-- An index of the weight matrix is in point t's block iff each coordinate is in the block's range on its axis. -/
theorem mem_blk0_2 (t : Fin cfg0.N) (i : S4096x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v3).slice (win0_2.rect t)).set ↔ _
  rw [View.set_slice_whole, Rect.mem_set_unit]
  exact Iff.rfl

/-- Row r of the weight matrix is covered by the point r / 512. -/
theorem covered0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The weight matrix after the region: the dequantization of the code matrix by the flattened codebook, both as the
    region finds them. -/
theorem final0 (c : Dev nD) :
    (dat0 (F := Ideal) V c).arrAt 2 cfg0.N = Cert.Spec.Wq (V c main_v2) (V c main_v1) :=
  (dat0 (F := Ideal) V c).arrAt_eq_of_cover 2 (Cert.Spec.Wq (V c main_v2) (V c main_v1))
    (fun t _ => flushed0_2_eq V c t) (covered0_2)

end Array

end Cert.KernelIdeal.Hand

end
-- ==== Proof.R1Value.lean ====
/-
  Region 1 (the blocked matrix product), read at the ideal values, where a float is an extended real, every float
  operation is exact and a change of float format is the identity: what the region leaves in its output array, as one
  function of the whole arrays it reads.

  The grid is 8 × 2 × 8, walked with the last axis fastest. Point t works on rows 1024·(t/16) … of x, on rows
  2048·((t/8)%2) … of the weight matrix, and on columns 512·(t%8) … of both. One point adds to the accumulator's entry
  (p, q) the 512-term product Σ_kk xblock[p, kk] · wblock[q, kk]; the accumulator starts from zero where t % 8 = 0. So
  after point t its entry (p, q) is the first 512·(t%8 + 1) terms of

      Σ_k x[1024·(t/16) + p, k] · w[2048·((t/8)%2) + q, k],

  by induction on the point; extended-real addition is associative, so the regrouping into blocks of 512 asks nothing
  of the terms. Where t % 8 = 7 that is all 4096 terms, the block is written back, and the blocks of those sixteen
  points tile the output array: entry (r, o) lies in the block of point 16·(r/1024) + 8·(o/2048) + 7. Hence the
  output array ends as Y[r, o] = Σ_{k<4096} x[r, k] · w[o, k].
-/
import proofs.«419614_j73289321939386_3_alg».proof.Proof.R1Defs
import proofs.«419614_j73289321939386_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The block product read at an entry -/

theorem lhs_blockdot_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_blockdot_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_blockdot_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_blockdot_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The zero block is zero at every entry. -/
theorem pay1_apply (i : S1024x2048.Idx) : k1_pay1 (F := Ideal) i = 0 := by
  show Ideal.ofBits .f32 0x00000000#32 = 0
  exact Ideal.ofBits_zero_f32

/-- One point's update at an entry: the accumulator's entry plus the 512-term product of row p of the x block with row
    q of the weight block. -/
theorem pay2_apply (xb : Vec Ideal S1024x512 .f32) (acc : Vec Ideal S1024x2048 .f32) (wb : Vec Ideal S2048x512 .bf16)
    (p : Fin 1024) (q : Fin 2048) :
    k1_pay2 (F := Ideal) xb acc wb (ix2 p q) = acc (ix2 p q) + ∑ kk : Fin 512, xb (ix2 p kk) * wb (ix2 q kk) := by
  unfold k1_pay2
  simp only [shapeCast_self]
  refine congrArg (acc (ix2 p q) + ·) ?_
  refine (Ideal.matmul_constant_zero_apply dot_S1024x512_S2048x512_S1024x2048_1_1_0_0_n_n none (truncf FTy.bf16 xb bitsLt_bf16_f32) wb (ix2 p q)).trans ?_
  rw [← Equiv.sum_comp (ValueIdx.contrEquiv1 dot_S1024x512_S2048x512_S1024x2048_1_1_0_0_n_n 512 rfl rfl).symm]
  refine Finset.sum_congr rfl fun kk _ => ?_
  have hk := ValueIdx.contrEquiv1_symm_val dot_S1024x512_S2048x512_S1024x2048_1_1_0_0_n_n 512 rfl rfl kk
  have el : dot_S1024x512_S2048x512_S1024x2048_1_1_0_0_n_n.lhsIdx (ix2 p q) ((ValueIdx.contrEquiv1 dot_S1024x512_S2048x512_S1024x2048_1_1_0_0_n_n 512 rfl rfl).symm kk) = ix2 p kk := funext fun a => Fin.ext (by
    match a with
    | ⟨0, _⟩ => exact lhs_blockdot_0 _ _
    | ⟨1, _⟩ => exact (lhs_blockdot_1 _ _).trans hk)
  have er : dot_S1024x512_S2048x512_S1024x2048_1_1_0_0_n_n.rhsIdx (ix2 p q) ((ValueIdx.contrEquiv1 dot_S1024x512_S2048x512_S1024x2048_1_1_0_0_n_n 512 rfl rfl).symm kk) = ix2 q kk := funext fun a => Fin.ext (by
    match a with
    | ⟨0, _⟩ => exact rhs_blockdot_0 _ _
    | ⟨1, _⟩ => exact (rhs_blockdot_1 _ _).trans hk)
  rw [el, er]
  rfl

/-! ## The arrays and their blocks -/

/-- An entry of a matrix by natural coordinates, zero outside it: sums over ranges of naturals then need no bounds. -/
def matAt {n0 n1 : Nat} (m : (⟨2, ![n0, n1]⟩ : Shape).Idx → EReal) (r k : ℕ) : EReal :=
  if h : r < n0 ∧ k < n1 then m (ix2 ⟨r, h.1⟩ ⟨k, h.2⟩) else 0

theorem matAt_of_lt {n0 n1 : Nat} (m : (⟨2, ![n0, n1]⟩ : Shape).Idx → EReal) (r k : ℕ) (hr : r < n0) (hk : k < n1) :
    matAt m r k = m (ix2 ⟨r, hr⟩ ⟨k, hk⟩) := dif_pos ⟨hr, hk⟩

section Region
variable (V : (c : Dev nD) → (b : Ref sig .tc) → Buf (Elt Ideal) ((c : Thread nD τ).loc b))

/-- x, 8192 × 4096, as the region finds it. -/
abbrev xarr (c : Dev nD) : Vec Ideal S8192x4096 .f32 := V c main_v0
/-- The weight matrix, 4096 × 4096, as the region finds it. -/
abbrev warr (c : Dev nD) : Vec Ideal S4096x4096 .bf16 := V c main_v3
/-- The x block of point t. -/
abbrev xblk (c : Dev nD) (t : Fin cfg1.N) : Vec Ideal S1024x512 .f32 := iblk1 V c 0 t
/-- The weight block of point t. -/
abbrev wblk (c : Dev nD) (t : Fin cfg1.N) : Vec Ideal S2048x512 .bf16 := iblk1 V c 1 t

/-- The block indices of the three windows at point t: row block t / 16, column block (t / 8) % 2, contraction block
    t % 8. -/
theorem blockIdx1 : ∀ t : Fin cfg1.N,
    win1_0.index t (0 : Fin 2) = t.val / 16 ∧ win1_0.index t (1 : Fin 2) = t.val % 8
    ∧ win1_1.index t (0 : Fin 2) = (t.val / 8) % 2 ∧ win1_1.index t (1 : Fin 2) = t.val % 8
    ∧ win1_2.index t (0 : Fin 2) = t.val / 16 ∧ win1_2.index t (1 : Fin 2) = (t.val / 8) % 2 :=
  (by decide +kernel : ∀ t : Fin grid1.N,
    win1_0.index t (0 : Fin 2) = t.val / 16 ∧ win1_0.index t (1 : Fin 2) = t.val % 8
    ∧ win1_1.index t (0 : Fin 2) = (t.val / 8) % 2 ∧ win1_1.index t (1 : Fin 2) = t.val % 8
    ∧ win1_2.index t (0 : Fin 2) = t.val / 16 ∧ win1_2.index t (1 : Fin 2) = (t.val / 8) % 2)

theorem gridN1 : cfg1.N = 128 := by decide +kernel

/-- The x block of point t holds rows 1024·(t/16)… and columns 512·(t%8)… of x. -/
theorem xblk_apply (c : Dev nD) (t : Fin cfg1.N) (p : Fin 1024) (kk : Fin 512) :
    xblk V c t (ix2 p kk) = matAt (xarr V c) (1024 * (t.val / 16) + p.val) (512 * (t.val % 8) + kk.val) := by
  have hN : t.val < 128 := lt_of_lt_of_eq t.isLt gridN1
  have hp := p.isLt
  have hk := kk.isLt
  rw [matAt_of_lt _ _ _ (by omega) (by omega)]
  obtain ⟨e0, e1, -, -, -, -⟩ := blockIdx1 t
  show iblk1 V c 0 t (ix2 p kk) = V c main_v0 _
  unfold iblk1
  rw [View.read_apply]
  show V c main_v0 _ = V c main_v0 _
  congr 1
  funext a
  apply Fin.ext
  match a with
  | ⟨0, _⟩ => show win1_0.index t (0 : Fin 2) * 1024 + 1 * p.val = 1024 * (t.val / 16) + p.val; omega
  | ⟨1, _⟩ => show win1_0.index t (1 : Fin 2) * 512 + 1 * kk.val = 512 * (t.val % 8) + kk.val; omega

/-- The weight block of point t holds rows 2048·((t/8)%2)… and columns 512·(t%8)… of the weight matrix. -/
theorem wblk_apply (c : Dev nD) (t : Fin cfg1.N) (q : Fin 2048) (kk : Fin 512) :
    wblk V c t (ix2 q kk) = matAt (warr V c) (2048 * ((t.val / 8) % 2) + q.val) (512 * (t.val % 8) + kk.val) := by
  have hN : t.val < 128 := lt_of_lt_of_eq t.isLt gridN1
  have hq := q.isLt
  have hk := kk.isLt
  rw [matAt_of_lt _ _ _ (by omega) (by omega)]
  obtain ⟨-, -, e0, e1, -, -⟩ := blockIdx1 t
  show iblk1 V c 1 t (ix2 q kk) = V c main_v3 _
  unfold iblk1
  rw [View.read_apply]
  show V c main_v3 _ = V c main_v3 _
  congr 1
  funext a
  apply Fin.ext
  match a with
  | ⟨0, _⟩ => show win1_1.index t (0 : Fin 2) * 2048 + 1 * q.val = 2048 * ((t.val / 8) % 2) + q.val; omega
  | ⟨1, _⟩ => show win1_1.index t (1 : Fin 2) * 512 + 1 * kk.val = 512 * (t.val % 8) + kk.val; omega

end Region

section Region
variable (V : (c : Dev nD) → (b : Ref sig .tc) → Buf (Elt Ideal) ((c : Thread nD τ).loc b))

/-! ## The accumulator after a point -/

/-- A block's 512-term product is a stretch of the long product: entries that are f and g at 512·j + kk. -/
theorem block_sum (xb : Vec Ideal S1024x512 .f32) (wb : Vec Ideal S2048x512 .bf16) (p : Fin 1024) (q : Fin 2048)
    (f g : ℕ → EReal) (j : ℕ) (hx : ∀ kk : Fin 512, xb (ix2 p kk) = f (512 * j + kk.val))
    (hw : ∀ kk : Fin 512, wb (ix2 q kk) = g (512 * j + kk.val)) :
    ∑ kk : Fin 512, xb (ix2 p kk) * wb (ix2 q kk) = ∑ kk ∈ Finset.range 512, f (512 * j + kk) * g (512 * j + kk) := by
  rw [Finset.sum_range]
  exact Finset.sum_congr rfl fun kk _ => by rw [hx kk, hw kk]

/-- At a point whose contraction block is 0 the accumulator's entry is the first 512 terms. -/
theorem acc_reset_apply (c : Dev nD) (t : Fin cfg1.N) (h : t.val % 8 = 0) (p : Fin 1024) (q : Fin 2048) :
    accAt1 V c t.val t.isLt (ix2 p q)
      = ∑ k ∈ Finset.range 512, matAt (xarr V c) (1024 * (t.val / 16) + p.val) k * matAt (warr V c) (2048 * ((t.val / 8) % 2) + q.val) k := by
  refine (congrFun (accAt1_reset (F := Ideal) V c t h) (ix2 p q)).trans ?_
  refine (pay2_apply (xblk V c t) (k1_pay1 (F := Ideal)) (wblk V c t) p q).trans ?_
  rw [pay1_apply, zero_add]
  refine (block_sum (xblk V c t) (wblk V c t) p q (matAt (xarr V c) (1024 * (t.val / 16) + p.val))
    (matAt (warr V c) (2048 * ((t.val / 8) % 2) + q.val)) 0 (fun kk => ?_) (fun kk => ?_)).trans ?_
  · rw [xblk_apply, h]
  · rw [wblk_apply, h]
  · exact Finset.sum_congr rfl fun k _ => by rw [Nat.mul_zero, Nat.zero_add]

/-- Elsewhere it is the entry the point before left plus the next 512 terms. -/
theorem acc_step_apply (c : Dev nD) (t : Fin cfg1.N) (h : ¬ t.val % 8 = 0) (p : Fin 1024) (q : Fin 2048) :
    accAt1 V c t.val t.isLt (ix2 p q)
      = accAt1 V c (t.val - 1) (Nat.lt_of_le_of_lt (Nat.sub_le _ _) t.isLt) (ix2 p q)
        + ∑ kk ∈ Finset.range 512, matAt (xarr V c) (1024 * (t.val / 16) + p.val) (512 * (t.val % 8) + kk)
            * matAt (warr V c) (2048 * ((t.val / 8) % 2) + q.val) (512 * (t.val % 8) + kk) := by
  refine (congrFun (accAt1_step (F := Ideal) V c t h) (ix2 p q)).trans ?_
  refine (pay2_apply (xblk V c t) (accAt1 V c (t.val - 1) (Nat.lt_of_le_of_lt (Nat.sub_le _ _) t.isLt)) (wblk V c t) p q).trans ?_
  refine congrArg (accAt1 V c (t.val - 1) (Nat.lt_of_le_of_lt (Nat.sub_le _ _) t.isLt) (ix2 p q) + ·) ?_
  exact block_sum (xblk V c t) (wblk V c t) p q (matAt (xarr V c) (1024 * (t.val / 16) + p.val))
    (matAt (warr V c) (2048 * ((t.val / 8) % 2) + q.val)) (t.val % 8) (fun kk => xblk_apply V c t p kk) (fun kk => wblk_apply V c t q kk)

/-- After point n the accumulator's entry (p, q) is the first 512·(n % 8 + 1) terms of row 1024·(n/16) + p of x against
    row 2048·((n/8)%2) + q of the weight matrix. -/
theorem acc_eq (c : Dev nD) : ∀ (n : ℕ) (h : n < cfg1.N) (p : Fin 1024) (q : Fin 2048),
    accAt1 V c n h (ix2 p q)
      = ∑ k ∈ Finset.range (512 * (n % 8 + 1)), matAt (xarr V c) (1024 * (n / 16) + p.val) k * matAt (warr V c) (2048 * ((n / 8) % 2) + q.val) k := by
  intro n
  induction n with
  | zero => intro h p q; exact acc_reset_apply V c ⟨0, h⟩ rfl p q
  | succ n ih =>
    intro h p q
    by_cases h8 : (n + 1) % 8 = 0
    · refine (acc_reset_apply V c ⟨n + 1, h⟩ h8 p q).trans ?_
      show ∑ k ∈ Finset.range 512, matAt (xarr V c) (1024 * ((n + 1) / 16) + p.val) k * matAt (warr V c) (2048 * (((n + 1) / 8) % 2) + q.val) k = _
      rw [h8]
    · refine (acc_step_apply V c ⟨n + 1, h⟩ h8 p q).trans ?_
      show accAt1 V c n (Nat.lt_of_succ_lt h) (ix2 p q) + ∑ kk ∈ Finset.range 512, matAt (xarr V c) (1024 * ((n + 1) / 16) + p.val) (512 * ((n + 1) % 8) + kk)
            * matAt (warr V c) (2048 * (((n + 1) / 8) % 2) + q.val) (512 * ((n + 1) % 8) + kk) = _
      rw [ih (Nat.lt_of_succ_lt h) p q]
      have e1 : n / 16 = (n + 1) / 16 := by omega
      have e2 : (n / 8) % 2 = ((n + 1) / 8) % 2 := by omega
      have e3 : n % 8 + 1 = (n + 1) % 8 := by omega
      have e4 : 512 * ((n + 1) % 8 + 1) = 512 * ((n + 1) % 8) + 512 := by omega
      rw [e1, e2, e3, e4, Finset.sum_range_add]

end Region

/-! ## From the blocks to the array -/

/-- The whole product's entry as a sum over a range of naturals. -/
theorem MM_apply (x : Cert.Spec.SXf.Idx → EReal) (w : Cert.Spec.SW.Idx → EReal) (i : Cert.Spec.SXf.Idx) :
    Cert.Spec.MM x w i = ∑ k ∈ Finset.range 4096, matAt x (i 0).val k * matAt w (i 1).val k := by
  unfold Cert.Spec.MM
  rw [Finset.sum_range]
  exact Finset.sum_congr rfl fun k _ => by
    rw [matAt_of_lt x _ _ (i 0).isLt k.isLt, matAt_of_lt w _ _ (i 1).isLt k.isLt]
    rfl

section Region
variable (V : (c : Dev nD) → (b : Ref sig .tc) → Buf (Elt Ideal) ((c : Thread nD τ).loc b))

/-- At a point whose contraction block is 7 the accumulator's entry (p, q) is the whole product's entry at row
    1024·(t/16) + p, column 2048·((t/8)%2) + q. -/
theorem acc_final (c : Dev nD) (t : Fin cfg1.N) (h7 : t.val % 8 = 7) (p : Fin 1024) (q : Fin 2048) (i : S8192x4096.Idx)
    (h0 : (i 0).val = 1024 * (t.val / 16) + p.val) (h1 : (i 1).val = 2048 * ((t.val / 8) % 2) + q.val) :
    accAt1 V c t.val t.isLt (ix2 p q) = Cert.Spec.MM (xarr V c) (warr V c) i := by
  rw [acc_eq V c t.val t.isLt p q, MM_apply, h0, h1, h7]

/-- What a writing point writes back is its block of the whole product. -/
theorem flushed1_eq (c : Dev nD) (t : Fin cfg1.N) (hf : (cfg1.win 2).flush t = true) :
    (dat1 V c).flushed 2 t = ((cfg1.win 2).blk t).view.read (Elt Ideal) (Cert.Spec.MM (xarr V c) (warr V c)) := by
  have h7 : t.val % 8 = 7 := (flush1_2 t).mp hf
  obtain ⟨-, -, -, -, e0, e1⟩ := blockIdx1 t
  show (cfg1.win 2).cut (grid1.coords t) ((dat1 V c).after 2 t) = _
  rw [after1_2]
  funext j
  rw [View.read_apply]
  have hp : (j 0).val < 1024 := (j 0).isLt
  have hq : (j 1).val < 2048 := (j 1).isLt
  have ej : (cfg1.win 2).xinj (grid1.coords t) j = ix2 (⟨(j 0).val, hp⟩ : Fin 1024) (⟨(j 1).val, hq⟩ : Fin 2048) :=
    funext fun a => match a with | ⟨0, _⟩ => rfl | ⟨1, _⟩ => rfl
  show accAt1 V c t.val t.isLt ((cfg1.win 2).xinj (grid1.coords t) j) = _
  refine (congrArg (accAt1 V c t.val t.isLt) ej).trans ?_
  refine acc_final V c t h7 ⟨(j 0).val, hp⟩ ⟨(j 1).val, hq⟩ (((cfg1.win 2).blk t).view.emb j) ?_ ?_
  · show win1_2.index t (0 : Fin 2) * 1024 + 1 * (j 0).val = 1024 * (t.val / 16) + (j 0).val; omega
  · show win1_2.index t (1 : Fin 2) * 2048 + 1 * (j 1).val = 2048 * ((t.val / 8) % 2) + (j 1).val; omega

/-- An entry of the output array is in point t's block iff each coordinate is in the block's range on its axis. -/
theorem mem_blk1 (t : Fin cfg1.N) (i : S8192x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v4).slice (win1_2.rect t)).set ↔ _
  rw [View.set_slice_whole, Rect.mem_set_unit]
  exact Iff.rfl

/-- Every entry (r, o) of the output array is in the block of the writing point 16·(r/1024) + 8·(o/2048) + 7. -/
theorem cover1 (i : S8192x4096.Idx) : ∃ t : Fin cfg1.N, (cfg1.win 2).flush t = true ∧ i ∈ ((cfg1.win 2).blk t).view.set := by
  have hr : (i 0).val < 8192 := (i 0).isLt
  have ho : (i 1).val < 4096 := (i 1).isLt
  have hN : 16 * ((i 0).val / 1024) + 8 * ((i 1).val / 2048) + 7 < cfg1.N := by rw [gridN1]; omega
  refine ⟨⟨16 * ((i 0).val / 1024) + 8 * ((i 1).val / 2048) + 7, hN⟩, (flush1_2 _).mpr (by show (16 * ((i 0).val / 1024) + 8 * ((i 1).val / 2048) + 7) % 8 = 7; omega), ?_⟩
  obtain ⟨-, -, -, -, e0, e1⟩ := blockIdx1 ⟨16 * ((i 0).val / 1024) + 8 * ((i 1).val / 2048) + 7, hN⟩
  have ev : (⟨16 * ((i 0).val / 1024) + 8 * ((i 1).val / 2048) + 7, hN⟩ : Fin cfg1.N).val = 16 * ((i 0).val / 1024) + 8 * ((i 1).val / 2048) + 7 := rfl
  rw [mem_blk1]
  intro a
  match a with
  | ⟨0, _⟩ => show win1_2.index _ (0 : Fin 2) * 1024 ≤ (i 0).val ∧ (i 0).val < win1_2.index _ (0 : Fin 2) * 1024 + 1024; omega
  | ⟨1, _⟩ => show win1_2.index _ (1 : Fin 2) * 2048 ≤ (i 1).val ∧ (i 1).val < win1_2.index _ (1 : Fin 2) * 2048 + 2048; omega

/-- The output array after the region is the whole product of x and the weight matrix as the region found them. -/
theorem final1 (c : Dev nD) :
    (dat1 (F := Ideal) V c).arrAt 2 cfg1.N = Cert.Spec.MM (V c main_v0) (V c main_v3) :=
  (dat1 V c).arrAt_eq_of_cover 2 (Cert.Spec.MM (xarr V c) (warr V c)) (fun t hf => flushed1_eq V c t hf) cover1

end Region

end Cert.KernelIdeal.Hand

end
-- ==== Proof.RefRunH.lean ====
/-
  The reference program's run, read at typed references.

  A tensor value of a module-local function is named by a reference that carries the value's type; an operation
  over such references moves its function's operands and result between the carried type and the buffer's own
  type along the reference's type equation. Read back THROUGH the reference (`rd`), those transports cancel: an
  operation's result buffer holds the function's value of the operands' contents, and every other buffer holds
  what it held. The run of @main is then the composition of its twenty-five operations' functions, one stage
  per operation, which is the staged value `ReadP.val_main_v2` of the three arguments.
-/
import proofs.«419614_j73289321939386_3_alg».proof.Proof.Gen.ReferenceIdeal
import proofs.«419614_j73289321939386_3_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

/-! ## Contents read through a typed reference -/

section Typed

variable {τ : Topo} {sig : RefSig} {Val : EltTy → Type} {T Tx Ta Tb Tc Ty : BufTy}

/-- What a valuation holds at a typed reference, at the carried type. -/
def rd (G : Valuation τ sig Val) (x : TRef sig T) : T.Contents Val := x.ofBuf (G (Proc.devRef .tc x.ref))

/-- Transport to the buffer's type and back is the identity. -/
theorem ofBuf_toBuf (x : TRef sig T) (v : T.Contents Val) : x.ofBuf (x.toBuf v) = v := by
  obtain ⟨r, h, _, _⟩ := x
  subst h
  rfl

/-- A buffer an operation does not write is read as before it. -/
theorem rd_keep {op : HloOp τ sig Val} {y : Ref sig .tc} (hw : op.writes = {Proc.devRef .tc y})
    (G : Valuation τ sig Val) (z : TRef sig T) (h : z.ref ≠ y) : rd (op.result G) z = rd G z :=
  congrArg z.ofBuf (op.result_of_not_mem G (by rw [hw, Finset.mem_singleton]; exact devRef_ne_of_ne h))

theorem rd_nullary (y : TRef sig Ty) (v : Ty.Contents Val) (G : Valuation τ sig Val) :
    rd ((TRef.nullary y v : HloOp τ sig Val).result G) y = v :=
  (congrArg y.ofBuf (nullary_result y.ref (y.toBuf v) y.dev G)).trans (ofBuf_toBuf y v)

theorem rd_unary (x : TRef sig Tx) (y : TRef sig Ty) (f : Tx.Contents Val → Ty.Contents Val) (G : Valuation τ sig Val) :
    rd ((TRef.unary x y f : HloOp τ sig Val).result G) y = f (rd G x) :=
  (congrArg y.ofBuf (unary_result x.ref y.ref _ x.dev y.dev G)).trans (ofBuf_toBuf y _)

theorem rd_binary (a : TRef sig Ta) (b : TRef sig Tb) (y : TRef sig Ty)
    (f : Ta.Contents Val → Tb.Contents Val → Ty.Contents Val) (G : Valuation τ sig Val) :
    rd ((TRef.binary a b y f : HloOp τ sig Val).result G) y = f (rd G a) (rd G b) :=
  (congrArg y.ofBuf (binary_result a.ref b.ref y.ref _ a.dev b.dev y.dev G)).trans (ofBuf_toBuf y _)

theorem rd_ternary (c : TRef sig Tc) (a : TRef sig Ta) (b : TRef sig Tb) (y : TRef sig Ty)
    (f : Tc.Contents Val → Ta.Contents Val → Tb.Contents Val → Ty.Contents Val) (G : Valuation τ sig Val) :
    rd ((TRef.ternary c a b y f : HloOp τ sig Val).result G) y = f (rd G c) (rd G a) (rd G b) :=
  (congrArg y.ofBuf (ternary_result c.ref a.ref b.ref y.ref _ c.dev a.dev b.dev y.dev G)).trans (ofBuf_toBuf y _)

/-- A reshape between two typed references: the operand's contents in row-major order at the result's shape. -/
theorem rd_reshape' (x : TRef sig Tx) (y : TRef sig Ty) (he : Tx.elt = Ty.elt) (hn : Tx.shape.ShapeCasts Ty.shape)
    (G : Valuation τ sig Val) :
    rd ((TRef.reshape x y he hn : HloOp τ sig Val).result G) y = fun i => he ▸ shapeCast Ty.shape (rd G x) hn i := by
  obtain ⟨rx, hx, ox, ux⟩ := x
  obtain ⟨ry, hy, oy, uy⟩ := y
  subst hx
  subst hy
  exact reshape_result rx ry _ _ _ _ G

/-- The same between two types of one element type. -/
theorem rd_reshape {Sx Sy : Shape} {e : EltTy} (x : TRef sig ⟨Sx, e⟩) (y : TRef sig ⟨Sy, e⟩) (hn : Sx.ShapeCasts Sy)
    (G : Valuation τ sig Val) :
    rd ((TRef.reshape x y rfl hn : HloOp τ sig Val).result G) y = shapeCast Sy (rd G x) hn :=
  rd_reshape' x y rfl hn G

end Typed

section Keep

variable {τ : Topo} {sig : RefSig} {Val : EltTy → Type} {T Tx Ta Tb Tc Ty : BufTy}

/-! Each kind of operation leaves every reference other than its result as it was. -/

theorem rd_nullary_keep (y : TRef sig Ty) (v : Ty.Contents Val) (G : Valuation τ sig Val) (z : TRef sig T)
    (h : z.ref ≠ y.ref) : rd ((TRef.nullary y v : HloOp τ sig Val).result G) z = rd G z := rd_keep rfl G z h

theorem rd_unary_keep (x : TRef sig Tx) (y : TRef sig Ty) (f : Tx.Contents Val → Ty.Contents Val) (G : Valuation τ sig Val)
    (z : TRef sig T) (h : z.ref ≠ y.ref) : rd ((TRef.unary x y f : HloOp τ sig Val).result G) z = rd G z := rd_keep rfl G z h

theorem rd_binary_keep (a : TRef sig Ta) (b : TRef sig Tb) (y : TRef sig Ty)
    (f : Ta.Contents Val → Tb.Contents Val → Ty.Contents Val) (G : Valuation τ sig Val)
    (z : TRef sig T) (h : z.ref ≠ y.ref) : rd ((TRef.binary a b y f : HloOp τ sig Val).result G) z = rd G z := rd_keep rfl G z h

theorem rd_ternary_keep (c : TRef sig Tc) (a : TRef sig Ta) (b : TRef sig Tb) (y : TRef sig Ty)
    (f : Tc.Contents Val → Ta.Contents Val → Tb.Contents Val → Ty.Contents Val) (G : Valuation τ sig Val)
    (z : TRef sig T) (h : z.ref ≠ y.ref) : rd ((TRef.ternary c a b y f : HloOp τ sig Val).result G) z = rd G z := rd_keep rfl G z h

theorem rd_reshape_keep (x : TRef sig Tx) (y : TRef sig Ty) (he : Tx.elt = Ty.elt) (hn : Tx.shape.ShapeCasts Ty.shape)
    (G : Valuation τ sig Val) (z : TRef sig T) (h : z.ref ≠ y.ref) :
    rd ((TRef.reshape x y he hn : HloOp τ sig Val).result G) z = rd G z := rd_keep rfl G z h

end Keep

/-- Reads a typed reference after a line of typed operations: at each operation, its function of the operands' reads
    where the reference is its result, and the read before it otherwise (the two references told apart by computation). -/
macro "typed_results" : tactic =>
  `(tactic| repeat (first
      | rw [rd_nullary] | rw [rd_unary] | rw [rd_binary] | rw [rd_ternary] | rw [rd_reshape]
      | (rw [rd_nullary_keep]; rotate_left; decide)
      | (rw [rd_unary_keep]; rotate_left; decide)
      | (rw [rd_binary_keep]; rotate_left; decide)
      | (rw [rd_ternary_keep]; rotate_left; decide)
      | (rw [rd_reshape_keep]; rotate_left; decide)))

/-! ## The program as a line of typed operations -/

variable {F : FTy → Type} [FloatOps F]

/-- @main's arguments and its own three values, as typed references. -/
abbrev arg0 : TRef sig ⟨S4x2048x4096, .f32⟩ := .of main_arg0
abbrev arg1 : TRef sig ⟨S4096x1x8, .f32⟩ := .of main_arg1
abbrev arg2 : TRef sig ⟨S4096x1x4096, .i32⟩ := .of main_arg2
abbrev v0 : TRef sig ⟨S4096x1x4096, .f32⟩ := .of main_v0
abbrev v1 : TRef sig ⟨S4096x4096, .f32⟩ := .of main_v1
abbrev v2 : TRef sig ⟨S4x2048x4096, .f32⟩ := .of main_v2

/-- @main's twenty-five operations in order: the twenty-three of the inlined gather-along-an-axis function over the
    call's record of buffers (negative indices wrapped by the axis length 8; the indices tested to lie in 0 … 7;
    the gather; out-of-range reads filled with the quiet NaN word), then the reshape to a matrix and the contraction. -/
abbrev ops : List (HloOp τ sig (Elt F)) :=
  [ TRef.nullary main_call0.c (constantI S_ 32 0#32),
    TRef.unary main_call0.c main_call0.v0 (broadcastInDim S4096x1x4096 ![] bcast_S_S4096x1x4096),
    TRef.binary arg2 main_call0.v0 main_call0.v1 (cmpi .slt),
    TRef.nullary main_call0.c_0 (constantI S_ 32 8#32),
    TRef.unary main_call0.c_0 main_call0.v2 (broadcastInDim S4096x1x4096 ![] bcast_S_S4096x1x4096),
    TRef.binary arg2 main_call0.v2 main_call0.v3 addi,
    TRef.ternary main_call0.v1 main_call0.v3 arg2 main_call0.v4 select,
    TRef.reshape main_call0.v4 main_call0.v5 rfl shapeCasts_S4096x1x4096_S4096x4096x1,
    TRef.nullary main_call0.c_1 (constantI S1 32 7#32),
    TRef.nullary main_call0.c_2 (constantI S_ 32 0#32),
    TRef.unary main_call0.c_2 main_call0.v6 (broadcastInDim S4096x4096x1 ![] bcast_S_S4096x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x4096x1 ![0, 1, 2] bcast_S1x1x1_S4096x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x4096x1_S4096x4096_d2 h_S_),
    TRef.binary arg1 main_call0.v5 main_call0.v13 (fun x i => Host.gather gather_S4096x1x8_S4096x4096x1_S4096x1x4096_1_2_0_0_2_2_111 x i),
    TRef.unary main_call0.v12 main_call0.v14 (broadcastInDim S4096x1x4096 ![0, 2] bcast_S4096x4096_S4096x1x4096_0_2),
    TRef.nullary main_call0.cst (constant S_ .f32 0x7FC00000#32),
    TRef.unary main_call0.cst main_call0.v15 (broadcastInDim S4096x1x4096 ![] bcast_S_S4096x1x4096),
    TRef.ternary main_call0.v14 main_call0.v13 main_call0.v15 v0 select,
    TRef.reshape v0 v1 rfl shapeCasts_S4096x1x4096_S4096x4096,
    TRef.binary arg0 v1 v2 (fun l r => Host.dotGeneral dot_S4x2048x4096_S4096x4096_S4x2048x4096_2_1_01_0_n_n none l r) ]

/-- @main is that line: the function's body unfolded at its call, and an operation of @main over bare references the
    same operation over them typed (the transports along a reflexive type equation are the identity). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    binary_bufs_sub ..⟩

/-! ## What the buffers hold after the line -/

/-- The result: the contraction of the first argument with the gathered, masked and reshaped table, stage by stage
    the composition `ReadP.val_main_v2` of the three arguments' contents. -/
theorem after_v2 (V : Valuation τ sig (Elt F)) :
    rd (after ops V) v2 = ReadP.val_main_v2 (F := F) (rd V arg0) (rd V arg1) (rd V arg2) := by
  simp only [after_cons, after_nil]
  typed_results
  rfl

/-- No operation writes an argument. -/
theorem after_arg0 (V : Valuation τ sig (Elt F)) : rd (after ops V) arg0 = rd V arg0 := by
  simp only [after_cons, after_nil]
  typed_results

theorem after_arg1 (V : Valuation τ sig (Elt F)) : rd (after ops V) arg1 = rd V arg1 := by
  simp only [after_cons, after_nil]
  typed_results

theorem after_arg2 (V : Valuation τ sig (Elt F)) : rd (after ops V) arg2 = rd V arg2 := by
  simp only [after_cons, after_nil]
  typed_results

/-! ## The run -/

/-- On every device, for any float values, from any memory with zero counters: every weakly fair execution of @main
    terminates with the result buffer at the staged value of the arguments' launch contents and the arguments unchanged.
    A read through a typed reference made from a bare one is the bare read (its type equation is reflexive). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Cert.ReferenceIdeal.ReadP.val_main_v2 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (after_v2 (launchContents m c)),
      (h c main_arg0).trans (after_arg0 (launchContents m c)),
      (h c main_arg1).trans (after_arg1 (launchContents m c)),
      (h c main_arg2).trans (after_arg2 (launchContents m c))⟩)
    (run_seq scopedRefs_eq scopedSems_eq defs main (fun _ => ops) main_eq (fun _ => ops_sub) m ρ)

end Cert.ReferenceIdeal.RunH

end
-- ==== Proof.RefValue.lean ====
/-
  The reference program's result is the specification's function G, read stage by stage at the ideal instance (a float
  is an extended real, every operation exact), under the hypothesis that every code word reads, signed, in [0, 8).

  * The normalisation (a negative code moved up by eight) leaves an in-range code as it is.
  * The in-range mask 0 ≤ code ≤ 7, reduced by conjunction over its axis of extent one and broadcast back over the
    codes' shape, is 1 everywhere, so the final select takes the gathered weight and never the NaN fill.
  * The gather reads row o's eight-entry codebook at the start index read signed and clamped into [0, 7]: the
    specification's clamp of the code.
  * The two reshapes move (o, 0, k) ↔ (o, k, 0) and (o, 0, k) ↔ (o, k).
  * The contraction is y[b, s, o] = Σ_k x[b, s, k] · W[o, k] over the 4096 shared coordinates.
-/
import proofs.«419614_j73289321939386_3_alg».proof.Proof.RefReadP
import proofs.«419614_j73289321939386_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Idealize.ShloMosaic.StableHlo

/-! ## Words: a code that reads in [0, 8) against the constants 0 and 7 -/

/-- A word that reads non-negative is not below zero. -/
theorem cmpi_slt_zero (b : BitVec 32) (h : 0 ≤ b.toInt) : IntOp.cmpi .slt b 0#32 = 0#1 := by
  have h0 : (0#32 : BitVec 32).toInt = 0 := by decide
  have hb : b.slt 0#32 = false := by simp only [BitVec.slt, h0, decide_eq_false_iff_not]; omega
  show BitVec.ofBool (b.slt 0#32) = 0#1
  rw [hb]; rfl

/-- A word that reads non-negative is at least zero. -/
theorem cmpi_sge_zero (b : BitVec 32) (h : 0 ≤ b.toInt) : IntOp.cmpi .sge b 0#32 = 1#1 := by
  have h0 : (0#32 : BitVec 32).toInt = 0 := by decide
  have hb : (0#32 : BitVec 32).sle b = true := by simp only [BitVec.sle, h0, decide_eq_true_eq]; exact h
  show BitVec.ofBool ((0#32 : BitVec 32).sle b) = 1#1
  rw [hb]; rfl

/-- A word that reads below eight is at most seven. -/
theorem cmpi_sle_seven (b : BitVec 32) (h : b.toInt < 8) : IntOp.cmpi .sle b 7#32 = 1#1 := by
  have h7 : (7#32 : BitVec 32).toInt = 7 := by decide
  have hb : b.sle 7#32 = true := by simp only [BitVec.sle, h7, decide_eq_true_eq]; omega
  show BitVec.ofBool (b.sle 7#32) = 1#1
  rw [hb]; rfl

/-- A fold of the one-bit conjunction from the bit 1 over bits that are all 1 is 1. -/
theorem fold_andi_one {ι : Type} (S : Finset ι) (g : ι → BitVec 1) (hg : ∀ k, g k = 1#1) :
    S.fold IntOp.andi 1#1 g = 1#1 := by
  classical
  induction S using Finset.induction_on with
  | empty => rfl
  | insert a S ha ih => rw [Finset.fold_insert ha, ih, hg a]; rfl

/-! ## Indices by their coordinates, at the program's literal extents -/

/-- The index (o, 0, k) of a 4096 × 1 × 4096 array. -/
abbrev ixC (o k : Fin 4096) : S4096x1x4096.Idx := ix3 o (0 : Fin 1) k
/-- The index (o, k, 0) of a 4096 × 4096 × 1 array. -/
abbrev ixR (o k : Fin 4096) : S4096x4096x1.Idx := ix3 o k (0 : Fin 1)
/-- The index (o, 0, c) of a 4096 × 1 × 8 array. -/
abbrev ixG (o : Fin 4096) (c : Fin 8) : S4096x1x8.Idx := ix3 o (0 : Fin 1) c

/-! ## The code array through the normalisation and the two reshapes -/

section Stages

variable (x2 : (⟨S4096x1x4096, .i32⟩ : BufTy).Contents (Elt Ideal))

/-- In range, the normalisation (a negative code moved up by eight) leaves the code as it is. -/
theorem v4_apply (i : S4096x1x4096.Idx) (h0 : 0 ≤ (x2 i).toInt) :
    val_main_call0_v4 (F := Ideal) x2 i = x2 i := by
  rw [val_main_call0_v4_apply, val_main_call0_v1_apply, val_main_call0_v0_apply, val_main_call0_c_apply,
    cmpi_slt_zero _ h0, select_zero]

/-- The index (o, k, 0) of the reshaped code array is the index (o, 0, k) of the code array. -/
theorem idx_v5_eq (j : S4096x4096x1.Idx) : idx_main_call0_v5 j = ixC (j 0) (j 1) := by
  have h0 : (j 0).val < 4096 := (j 0).isLt
  have h1 : (j 1).val < 4096 := (j 1).isLt
  have h2 : (j 2).val < 1 := (j 2).isLt
  funext a
  match a with
  | ⟨0, _⟩ => exact Fin.ext (by show (((j 0).val * 4096 + (j 1).val) * 1 + (j 2).val) / 4096 = (j 0).val; omega)
  | ⟨1, _⟩ => rfl
  | ⟨2, _⟩ => exact Fin.ext (by show (((j 0).val * 4096 + (j 1).val) * 1 + (j 2).val) % 4096 = (j 1).val; omega)

/-- The index (o, k) of the flat weight matrix is the index (o, 0, k) of the gathered weights. -/
theorem idx_v1_eq (j : S4096x4096.Idx) : idx_main_v1 j = ixC (j 0) (j 1) := by
  have h0 : (j 0).val < 4096 := (j 0).isLt
  have h1 : (j 1).val < 4096 := (j 1).isLt
  funext a
  match a with
  | ⟨0, _⟩ => exact Fin.ext (by show ((j 0).val * 4096 + (j 1).val) / 4096 = (j 0).val; omega)
  | ⟨1, _⟩ => rfl
  | ⟨2, _⟩ => exact Fin.ext (by show ((j 0).val * 4096 + (j 1).val) % 4096 = (j 1).val; omega)

variable (hr : ∀ i, 0 ≤ (x2 i).toInt ∧ (x2 i).toInt < 8)
include hr

/-- In range, the reshaped code array at (o, k, 0) is the code at (o, 0, k). -/
theorem v5_apply (j : S4096x4096x1.Idx) :
    val_main_call0_v5 (F := Ideal) x2 j = x2 (ixC (j 0) (j 1)) := by
  rw [val_main_call0_v5_apply, idx_v5_eq, v4_apply x2 _ (hr _).1]

/-- In range, the mask "0 ≤ code ≤ 7" is 1 at every element. -/
theorem v11_apply (j : S4096x4096x1.Idx) : val_main_call0_v11 (F := Ideal) x2 j = 1#1 := by
  rw [val_main_call0_v11_apply, val_main_call0_v7_apply, val_main_call0_v10_apply, v5_apply x2 hr,
    val_main_call0_v6_apply, val_main_call0_c_2_apply, val_main_call0_v9_apply, val_main_call0_v8_apply,
    val_main_call0_c_1_apply, cmpi_sge_zero _ (hr _).1, cmpi_sle_seven _ (hr _).2]
  rfl

/-- In range, the mask reduced by conjunction over its axis of extent one is 1 at every element. -/
theorem v12_apply (j : S4096x4096.Idx) : val_main_call0_v12 (F := Ideal) x2 j = 1#1 := by
  have h : S4096x4096x1.Reduces [(2 : Fin S4096x4096x1.rank)] S4096x4096 := by decide
  unfold val_main_call0_v12
  rw [Host.reduce_eq_fold_single IntOp.andi _ _ _ h _ j]
  exact fold_andi_one _ _ (fun k => v11_apply x2 hr _)

/-- In range, the mask broadcast back over the codes' shape is 1 at every element. -/
theorem v14_apply (i : S4096x1x4096.Idx) : val_main_call0_v14 (F := Ideal) x2 i = 1#1 := by
  rw [val_main_call0_v14_apply, v12_apply x2 hr]

end Stages

/-! ## The gather: row o's codebook at the start index read signed and clamped into [0, 7] -/

local notation "GD" => gather_S4096x1x8_S4096x4096x1_S4096x1x4096_1_2_0_0_2_2_111

/-- The gather at (o, 0, k): operand axis 0 is the batch coordinate o, axis 1 the offset coordinate 0, axis 2 the
    start index idx[o, k, 0] read signed and clamped into [0, 7]. -/
theorem gather_apply {α : Type} (x : S4096x1x8.Idx → α) (idx : IVec S4096x4096x1 32) (j : S4096x1x4096.Idx) :
    Host.gather GD x idx j = x (ixG (j 0) (Cert.Spec.code (idx (ixR (j 0) (j 2))))) := by
  unfold Host.gather
  congr 1
  funext a
  refine Fin.ext ?_
  match a with
  | ⟨0, _⟩ =>
    -- a batching axis: no start, no offset; the batch coordinate is the result's coordinate on axis 0
    show (GD).start j idx 0 + (GD).batchCoord j 0 + (GD).offCoord j 0 = (j 0).val
    rw [GatherDims.start_batching _ _ _ _ (show (0 : Fin S4096x1x8.rank) ∈ (GD).operandBatchingDims by decide),
      GatherDims.offCoord_eq_zero _ _ _ (fun h => ((GatherDims.mem_sKept _ _).mp h).2 (by decide))]
    unfold GatherDims.batchCoord
    rw [dif_pos (show (0 : Fin S4096x1x8.rank) ∈ (GD).operandBatchingDims by decide)]
    simp only [Nat.zero_add, Nat.add_zero]
    rfl
  | ⟨1, _⟩ =>
    -- the offset axis, of extent one: no start, no batch coordinate; the offset is the result's coordinate on axis 1
    show (GD).start j idx 1 + (GD).batchCoord j 1 + (GD).offCoord j 1 = 0
    have h1 : (j 1).val < 1 := (j 1).isLt
    have hs : (GD).start j idx 1 = 0 := by
      unfold GatherDims.start
      rw [dif_neg (show ¬(1 : Fin S4096x1x8.rank) ∈ (GD).startIndexMap by decide)]
    have ho : (GD).offCoord j 1 = (j 1).val := by
      unfold GatherDims.offCoord
      rw [dif_pos ((GatherDims.mem_sKept _ _).mpr ⟨by decide, by decide⟩)]
      rfl
    rw [hs, GatherDims.batchCoord_eq_zero _ _ _ (show ¬(1 : Fin S4096x1x8.rank) ∈ (GD).operandBatchingDims by decide), ho]
    omega
  | ⟨2, _⟩ =>
    -- the collapsed axis the start index names: the clamped start, no batch coordinate, no offset
    show (GD).start j idx 2 + (GD).batchCoord j 2 + (GD).offCoord j 2 = min (idx (ixR (j 0) (j 2))).toInt.toNat 7
    rw [GatherDims.batchCoord_eq_zero _ _ _ (show ¬(2 : Fin S4096x1x8.rank) ∈ (GD).operandBatchingDims by decide),
      GatherDims.offCoord_eq_zero _ _ _ (fun h => ((GatherDims.mem_sKept _ _).mp h).1 (by decide))]
    simp only [Nat.add_zero]
    unfold GatherDims.start
    rw [dif_pos (show (2 : Fin S4096x1x8.rank) ∈ (GD).startIndexMap by decide)]
    have hsi : (GD).siIdx j ⟨List.idxOf (2 : Fin S4096x1x8.rank) (GD).startIndexMap,
        List.idxOf_lt_length_iff.2 (show (2 : Fin S4096x1x8.rank) ∈ (GD).startIndexMap by decide)⟩ = ixR (j 0) (j 2) := by
      funext b; refine Fin.ext ?_
      match b with
      | ⟨0, _⟩ => rfl
      | ⟨1, _⟩ => rfl
      | ⟨2, _⟩ => rfl
    rw [hsi]
    rfl

/-! ## The weights: the select never takes its fill, and the second reshape -/

section Weights

variable (x1 : (⟨S4096x1x8, .f32⟩ : BufTy).Contents (Elt Ideal)) (x2 : (⟨S4096x1x4096, .i32⟩ : BufTy).Contents (Elt Ideal))
variable (hr : ∀ i, 0 ≤ (x2 i).toInt ∧ (x2 i).toInt < 8)
include hr

/-- In range, the gathered weight at (o, 0, k) is row o's codebook entry at the clamp of the code at (o, 0, k). -/
theorem v13_apply (i : S4096x1x4096.Idx) :
    val_main_call0_v13 (F := Ideal) x1 x2 i = x1 (ixG (i 0) (Cert.Spec.code (x2 (ixC (i 0) (i 2))))) := by
  have e : val_main_call0_v5 (F := Ideal) x2 (ixR (i 0) (i 2)) = x2 (ixC (i 0) (i 2)) := v5_apply x2 hr _
  unfold val_main_call0_v13
  rw [gather_apply, e]

/-- In range, the select on the mask takes the gathered weight, never the fill. -/
theorem v0_apply (i : S4096x1x4096.Idx) :
    val_main_v0 (F := Ideal) x1 x2 i = x1 (ixG (i 0) (Cert.Spec.code (x2 (ixC (i 0) (i 2))))) := by
  rw [val_main_v0_apply, v14_apply x2 hr, select_one]
  exact v13_apply x1 x2 hr i

/-- In range, the flat weight matrix at (o, k) is row o's codebook entry at the clamp of the code at (o, 0, k). -/
theorem v1_apply (j : S4096x4096.Idx) :
    val_main_v1 (F := Ideal) x1 x2 j = x1 (ixG (j 0) (Cert.Spec.code (x2 (ixC (j 0) (j 1))))) := by
  rw [val_main_v1_apply, idx_v1_eq]
  exact v0_apply x1 x2 hr _

end Weights

/-! ## The result -/

/-- The index (b, s, k) of the 4 × 2048 × 4096 left operand. -/
abbrev ixX (b : Fin 4) (s : Fin 2048) (k : Fin 4096) : S4x2048x4096.Idx := ix3 b s k
/-- The index (o, k) of the 4096 × 4096 weight matrix. -/
abbrev ixW (o k : Fin 4096) : S4096x4096.Idx := ix2 o k

/-- The contraction's left operand is read at (b, s, k). -/
theorem lidx_eq (i : S4x2048x4096.Idx) (k : Fin 4096) : lidx_main_v2 i k = ixX (i 0) (i 1) k := by
  funext a
  match a with
  | ⟨0, _⟩ => rfl
  | ⟨1, _⟩ => rfl
  | ⟨2, _⟩ => rfl

/-- The contraction's right operand is read at (o, k). -/
theorem ridx_eq (i : S4x2048x4096.Idx) (k : Fin 4096) : ridx_main_v2 i k = ixW (i 2) k := by
  funext a
  match a with
  | ⟨0, _⟩ => rfl
  | ⟨1, _⟩ => rfl

/-- THE REFERENCE IS G: with every code in [0, 8), the reference program's result is
    y[b, s, o] = Σ_k x[b, s, k] · grid[o, 0, clamp(code[o, 0, k])]. -/
theorem ref_eq (x0 : (⟨S4x2048x4096, .f32⟩ : BufTy).Contents (Elt Ideal)) (x1 : (⟨S4096x1x8, .f32⟩ : BufTy).Contents (Elt Ideal)) (x2 : (⟨S4096x1x4096, .i32⟩ : BufTy).Contents (Elt Ideal))
    (hr : ∀ i, 0 ≤ (x2 i).toInt ∧ (x2 i).toInt < 8) :
    Cert.ReferenceIdeal.ReadP.val_main_v2 (F := Ideal) x0 x1 x2 = Cert.Spec.G x0 x1 x2 := by
  funext i
  refine (val_main_v2_apply x0 x1 x2 i).trans (Finset.sum_congr rfl fun k _ => ?_)
  have ew : val_main_v1 (F := Ideal) x1 x2 (ridx_main_v2 i k) = x1 (ixG (i 2) (Cert.Spec.code (x2 (ixC (i 2) k)))) := by
    rw [ridx_eq]; exact v1_apply x1 x2 hr _
  calc x0 (lidx_main_v2 i k) * val_main_v1 (F := Ideal) x1 x2 (ridx_main_v2 i k)
      = x0 (ixX (i 0) (i 1) k) * x1 (ixG (i 2) (Cert.Spec.code (x2 (ixC (i 2) k)))) := by rw [lidx_eq, ew]
    _ = _ := rfl

end Cert.ReferenceIdeal.RefValue

end
-- ==== Proof.PreDecode.lean ====
/-
  The printed precondition, decoded into the one fact the value proof uses: every code word, read signed,
  lies in [0, 8).

  The precondition is the conjunction of four all-reductions by `and` into the scalar shape: |x| < ∞ everywhere,
  |grid| < ∞ everywhere, code ≥ 0 everywhere (a signed compare against the splat of 0), code < 8 everywhere (a signed
  compare against the splat of 8). The conjunction being 1 at the scalar shape's one index makes each conjunct 1;
  an all-reduction by `and` that is 1 met a 1 at every element; and a signed compare that is 1 orders its operands as
  the integers they denote. Only the last two conjuncts are read. Nothing here evaluates an array: the code array is
  read at one arbitrary index.
-/
import proofs.«419614_j73289321939386_3_alg».proof.Pre_finite_inputs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx
open Cert.Pre_finite_inputs

/-- The scalar shape has one index. -/
instance subsingleton_scalar_idx : Subsingleton S_.Idx := ⟨fun a b => funext fun d => d.elim0⟩

/-- The two constants the code words are compared against, as integers. -/
theorem toInt_zero32 : (0#32 : BitVec 32).toInt = 0 := by decide
theorem toInt_eight32 : (8#32 : BitVec 32).toInt = 8 := by decide

/-- THE PRECONDITION DECODED: under it every code word is in [0, 8), read signed. -/
theorem codes_in_range [Cert.Pre_finite_inputs.Facts] {F : FTy → Type} [FloatOps F]
    (a0 : FVec F Cert.Pre_finite_inputs.S4x2048x4096 .f32) (a1 : FVec F Cert.Pre_finite_inputs.S4096x1x8 .f32)
    (a2 : IVec Cert.Pre_finite_inputs.S4096x1x4096 32)
    (h : Cert.Pre_finite_inputs.fn (F := F) a0 a1 a2 = fun _ => 1#1) :
    ∀ i, 0 ≤ (a2 i).toInt ∧ (a2 i).toInt < 8 := by
  intro i
  -- the conjunction at the scalar shape's one index
  have e := congrFun h ix0
  dsimp only [Cert.Pre_finite_inputs.fn, Cert.Pre_finite_inputs.fn_part1] at e
  -- split the three `and`s: the last two conjuncts are the all-reductions over the code array
  obtain ⟨e12, hlt⟩ := IntOp.andi_eq_one.1 e
  obtain ⟨-, hge⟩ := IntOp.andi_eq_one.1 e12
  -- each all-reduction being 1 gives its compare 1 at index i
  have cge := Host.reduce_andi_all _ _ _ _ _ hge i
  have clt := Host.reduce_andi_all _ _ _ _ _ hlt i
  -- the splats read at i are the constants themselves; the signed compares order the integers
  have h0 : (0#32 : BitVec 32).toInt ≤ (a2 i).toInt := IntOp.cmpi_sge.1 cge
  have h8 : (a2 i).toInt < (8#32 : BitVec 32).toInt := IntOp.cmpi_slt.1 clt
  rw [toInt_zero32] at h0
  rw [toInt_eight32] at h8
  exact ⟨h0, h8⟩

end Cert.PreDecode
-- ==== Proof.lean ====
/-
  The certificate of the 3-bit look-up-table linear layer: y = x · Wᵀ with W[o, k] = grid[o, 0, code[o, 0, k]],
  the kernel in two regions (dequantize the weights once; then a blocked matrix product with an accumulator) against
  the reference (take_along_axis, reshape, einsum), under the precondition that the float inputs are finite and every
  code lies in [0, 8).

  Both idealized programs compute, on the extended reals, y[b, s, o] = Σ_k x[b, s, k] · grid[o, 0, code[o, 0, k]]
  (Cert.Spec.G). The kernel: each weight is the sum of eight selections of which exactly one is a codebook entry and
  seven are zero; the product is accumulated over eight contraction blocks from zero, which regroups one sum of 4096
  products (addition on the extended reals is commutative and associative: no finiteness is used). The reference: in
  range, the index normalisation is the identity and the out-of-range fill is never selected, so the gather reads the
  same codebook entry, and the contraction is the same sum. The three frames: each program runs to the end, faults
  nowhere and leaves its three argument arrays as launched. The ideal pass rewrote nothing, so `preserves` is trivial.
-/
import proofs.«419614_j73289321939386_3_alg».proof.Defs
import proofs.«419614_j73289321939386_3_alg».proof.Proof.Gen.Kernel
import proofs.«419614_j73289321939386_3_alg».proof.Proof.Gen.KernelIdeal
import proofs.«419614_j73289321939386_3_alg».proof.Proof.Gen.ReferenceIdeal
import proofs.«419614_j73289321939386_3_alg».proof.Proof.Gen.Pre_finite_inputs
import proofs.«419614_j73289321939386_3_alg».proof.Proof.KRun
import proofs.«419614_j73289321939386_3_alg».proof.Proof.Bridge
import proofs.«419614_j73289321939386_3_alg».proof.Proof.R0Value
import proofs.«419614_j73289321939386_3_alg».proof.Proof.R1Value
import proofs.«419614_j73289321939386_3_alg».proof.Proof.RefRunH
import proofs.«419614_j73289321939386_3_alg».proof.Proof.RefValue
import proofs.«419614_j73289321939386_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- So does the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- From memories agreeing on the arguments both idealized programs end with the result at G of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the kernel: the last boundary's contents of the result buffer and of the three arguments
    refine (θ_run Cert.KernelIdeal.defs _ _).mono (fun r h c => ⟨?_, ?_, ?_, ?_⟩) (Cert.KernelIdeal.Hand.run_main (F := Ideal) m ρ)
    · exact (h c _ (Cert.KernelIdeal.Hand.mem_uc Cert.KernelIdeal.main_v5 (by decide))).trans
        (Cert.KernelIdeal.Hand.kernel_value m Cert.KernelIdeal.Hand.final0 Cert.KernelIdeal.Hand.final1 c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
  · -- the reference: its staged result is G of its own arguments, which are the kernel's
    refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2]
    exact Cert.ReferenceIdeal.RefValue.ref_eq _ _ _ (Cert.PreDecode.codes_in_range _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
